-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 38
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S1x64, .f32⟩
  | .hbm, ⟨26, _⟩ => ⟨S1x64, .f32⟩
  | .hbm, ⟨27, _⟩ => ⟨S_, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .i32⟩
  | .hbm, ⟨34, _⟩ => ⟨S_, .f32⟩
  | .hbm, ⟨35, _⟩ => ⟨S64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_cst_3 : Ref sig .tc := ⟨.hbm, 50, rfl⟩
abbrev main_call0_v12 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call1_cst : Ref sig .tc := ⟨.hbm, 72, rfl⟩
abbrev main_call1_v0 : Ref sig .tc := ⟨.hbm, 73, rfl⟩
abbrev main_v38 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The mathematics of the claim, over the extended reals, with no program in sight.

  A graph layer over 100000 nodes with 64 channels: the linear map `lin` of the (already aggregated) node features,
  batch statistics over the node axis, the normalisation, an affine map and a clamp at zero.  The two programs
  differ in how they spell the variance — the mean of the squares less the square of the mean on one side, the mean
  of the squared deviations on the other — and in how they bracket the product with the scale.  On real entries
  the two spellings are one function (`outK_eq_outR`, proved in Algebra.lean).
-/
import Idealize.ShloMosaic.Lib.ValueIdx
import Idealize.ShloMosaic.PureOps.Ideal.Laws

noncomputable section

namespace Cert.Spec

open Idealize.ShloMosaic Idealize.ShloMosaic.ValueIdx

/-- Node features: 100000 nodes by 64 channels. -/
abbrev SN : Shape := ⟨2, ![100000, 64]⟩
/-- The weight matrix. -/
abbrev SW : Shape := ⟨2, ![64, 64]⟩
/-- One row of 64 channels. -/
abbrev SR : Shape := ⟨2, ![1, 64]⟩
/-- A vector of 64 channels. -/
abbrev SV : Shape := ⟨1, ![64]⟩

/-- The number of nodes as both programs write it: the float 100000.0. -/
def nLit : EReal := Ideal.ofBits .f32 0x47C35000#32
/-- The stabiliser added to the variance, as both programs write it. -/
def epsLit : EReal := Ideal.ofBits .f32 0x3727C5AC#32

/-- The linear layer: row i of `xa` against column j of `W`, plus the bias of channel j. -/
def lin (xa : SN.Idx → EReal) (W : SW.Idx → EReal) (b : SV.Idx → EReal) : SN.Idx → EReal :=
  fun i => (∑ k : Fin 64, xa (ix2 (i 0) k) * W (ix2 k (i 1))) + b (ix1 (i 1))

/-- The sum of channel j over all nodes. -/
def colSum (h : SN.Idx → EReal) (j : Fin 64) : EReal := ∑ i : Fin 100000, h (ix2 i j)
/-- The sum of the squares of channel j over all nodes. -/
def colSumSq (h : SN.Idx → EReal) (j : Fin 64) : EReal := ∑ i : Fin 100000, h (ix2 i j) * h (ix2 i j)
/-- The mean of channel j. -/
def mean (h : SN.Idx → EReal) (j : Fin 64) : EReal := Ideal.div (colSum h j) nLit
/-- The variance as the mean of the squares less the square of the mean. -/
def varK (h : SN.Idx → EReal) (j : Fin 64) : EReal := Ideal.div (colSumSq h j) nLit - mean h j * mean h j
/-- The variance as the mean of the squared deviations from the mean. -/
def varR (h : SN.Idx → EReal) (j : Fin 64) : EReal :=
  Ideal.div (∑ i : Fin 100000, (h (ix2 i j) - mean h j) * (h (ix2 i j) - mean h j)) nLit

/-- Normalise, scale, shift, clamp at zero — the scale multiplying the already normalised entry, the variance `varK`. -/
def outK (h : SN.Idx → EReal) (γ β : SV.Idx → EReal) : SN.Idx → EReal :=
  fun i => max (γ (ix1 (i 1)) * ((h i - mean h (i 1)) * Ideal.rsqrt (varK h (i 1) + epsLit)) + β (ix1 (i 1))) 0

/-- The same with the scale applied to the centred entry first, the variance `varR`. -/
def outR (h : SN.Idx → EReal) (γ β : SV.Idx → EReal) : SN.Idx → EReal :=
  fun i => max (γ (ix1 (i 1)) * (h i - mean h (i 1)) * Ideal.rsqrt (varR h (i 1) + epsLit) + β (ix1 (i 1))) 0

/-- One normalisation pass with the statistics given as rows: entry (i, j) less the mean row's j, times the inverse
    root of the variance row's j plus the stabiliser, then scaled by row `g`, shifted by row `bt` and clamped at zero. -/
def normRows (h : SN.Idx → EReal) (μ v g bt : SR.Idx → EReal) : SN.Idx → EReal :=
  fun i => max (g (ix2 (0 : Fin 1) (i 1)) * ((h i - μ (ix2 (0 : Fin 1) (i 1))) * Ideal.rsqrt (v (ix2 (0 : Fin 1) (i 1)) + epsLit))
    + bt (ix2 (0 : Fin 1) (i 1))) 0

/-- Every entry is a real number: neither infinity occurs. -/
def IsReal {ι : Type} (f : ι → EReal) : Prop := ∀ i, ∃ r : ℝ, f i = (r : EReal)

end Cert.Spec

end
-- ==== Proof.Algebra.lean ====
/-
  The algebra that joins the two spellings of the layer (statements; see each docstring).
-/
import proofs.«113949_j43593918054564_1_alg».proof.Proof.Spec

noncomputable section

namespace Cert.Spec

open Idealize.ShloMosaic Idealize.ShloMosaic.ValueIdx

/-- The node count both programs write denotes the real number 100000. -/
theorem nLit_eq : nLit = ((100000 : ℝ) : EReal) := by
  simp [nLit, Ideal.ofBits, Ideal.ieee, -EReal.coe_mul]; norm_num

/-- A finite sum of real numbers, read in the extended reals, is the real sum read there. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over the reals, on an index set of n elements: the mean of the squares less the square of the mean is the mean
    of the squared deviations from the mean.  Expand each square, (f i - μ)² = f i² - 2 μ f i + μ²; summed over the
    n indices the last term gives n μ², and μ = (Σ f)/n turns - 2 μ Σ f + n μ² into - n μ². -/
private theorem var_real {ι : Type} [Fintype ι] (n : ℝ) (hn : n ≠ 0) (hcard : (Fintype.card ι : ℝ) = n)
    (f : ι → ℝ) :
    (∑ i, f i * f i) * (1 / n) - (∑ i, f i) * (1 / n) * ((∑ i, f i) * (1 / n))
      = (∑ i, (f i - (∑ i, f i) * (1 / n)) * (f i - (∑ i, f i) * (1 / n))) * (1 / n) := by
  set μ : ℝ := (∑ i, f i) * (1 / n) with hμ
  have hS : (∑ i, f i) = n * μ := by rw [hμ]; field_simp
  have h1 : (∑ i, (f i - μ) * (f i - μ)) = (∑ i, f i * f i) - 2 * μ * (∑ i, f i) + n * (μ * μ) := by
    have hexp : ∀ i, (f i - μ) * (f i - μ) = f i * f i - 2 * μ * f i + μ * μ := fun i => by ring
    simp only [hexp]
    rw [Finset.sum_add_distrib, Finset.sum_sub_distrib, ← Finset.mul_sum, Finset.sum_const, Finset.card_univ,
      nsmul_eq_mul, hcard]
  rw [h1, hS]
  field_simp
  ring

/-- On real entries the two spellings of the variance of a channel agree. -/
private theorem varK_eq_varR (h : SN.Idx → EReal) (hh : IsReal h) (j : Fin 64) : varK h j = varR h j := by
  choose f hf using hh
  have hn : (100000 : ℝ) ≠ 0 := by norm_num
  have hcard : (Fintype.card (Fin 100000) : ℝ) = 100000 := by rw [Fintype.card_fin]; norm_num
  have key := var_real (100000 : ℝ) hn hcard (fun i : Fin 100000 => f (ix2 i j))
  unfold varK varR mean colSum colSumSq
  rw [nLit_eq]
  simp only [Ideal.div_coe hn, hf, ← EReal.coe_mul, coe_sum, ← EReal.coe_sub]
  exact congrArg _ key

/-- The linear layer of real entries has real entries. -/
theorem lin_isReal {xa : SN.Idx → EReal} {W : SW.Idx → EReal} {b : SV.Idx → EReal}
    (hxa : IsReal xa) (hW : IsReal W) (hb : IsReal b) : IsReal (lin xa W b) := by
  choose fx hfx using hxa
  choose fW hfW using hW
  choose fb hfb using hb
  intro i
  refine ⟨(∑ k : Fin 64, fx (ix2 (i 0) k) * fW (ix2 k (i 1))) + fb (ix1 (i 1)), ?_⟩
  simp only [lin, hfx, hfW, hfb, ← EReal.coe_mul, coe_sum, EReal.coe_add]

/-- On real entries the two spellings of the normalised layer are one function. -/
theorem outK_eq_outR (h : SN.Idx → EReal) (γ β : SV.Idx → EReal) (hh : IsReal h) : outK h γ β = outR h γ β := by
  funext i
  unfold outK outR
  rw [varK_eq_varR h hh (i 1), mul_assoc]

end Cert.Spec

end
-- ==== Proof.KTerm.lean ====
/-
  The host operations before the first kernel region, as one function of the node features and the edge list.
-/
import proofs.«113949_j43593918054564_1_alg».proof.Proof.Gen.KernelIdeal

noncomputable section

namespace Cert.KernelIdeal.KTerm

open Idealize.ShloMosaic Idealize.SL.Sem Cert.KernelIdeal Cert.KernelIdeal.Gen

variable {F : FTy → Type} [FloatOps F]

/-- The neighbour sums as the host computes them: the source row of every edge gathered (a negative source index
    wrapped once by the node count, then clamped into range by the gather), and added into the row its destination names
    (an edge whose destination is out of range adds nothing). -/
def agg (x : FVec F S100000x64 .f32) (ei : IVec S2x1600000 32) : FVec F S100000x64 .f32 :=
  let src : IVec S1600000 32 := shapeCast S1600000 (extractStridedSlice S1x1600000 ![0, 0] ei slices_S2x1600000_S1x1600000_0_0) shapeCasts_S1x1600000_S1600000
  let dst : IVec S1600000 32 := shapeCast S1600000 (extractStridedSlice S1x1600000 ![1, 0] ei slices_S2x1600000_S1x1600000_1_0) shapeCasts_S1x1600000_S1600000
  let srcw : IVec S1600000 32 := select (cmpi .slt src (broadcastInDim S1600000 ![] bcast_S_S1600000 (constantI S_ 32 0#32)))
    (addi src (broadcastInDim S1600000 ![] bcast_S_S1600000 (constantI S_ 32 100000#32))) src
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 x (broadcastInDim S1600000x1 ![0] bcast_S1600000_S1600000x1_0 srcw))

end Cert.KernelIdeal.KTerm

end
-- ==== Proof.Finite.lean ====
/-
  From the precondition (every float input finite) to real entries.
-/
import proofs.«113949_j43593918054564_1_alg».proof.Proof.Gen.Pre_finite_inputs
import proofs.«113949_j43593918054564_1_alg».proof.Proof.Spec
import proofs.«113949_j43593918054564_1_alg».proof.Proof.KTerm
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Spec

/-- An extended real whose absolute value max a (-a) lies strictly below +∞ (the value of the word 0x7F800000) is neither
    infinity: at +∞ and at -∞ the absolute value is +∞ itself. -/
private theorem real_of_abs_lt (a : EReal)
    (h : Ideal.cmp .olt (max a (-a)) (Ideal.ofBits .f32 0x7F800000#32) = 1#1) : ∃ r : ℝ, a = (r : EReal) := by
  have ht : Ideal.ofBits .f32 0x7F800000#32 = (⊤ : EReal) := by simp [Ideal.ofBits, Ideal.ieee]
  rw [ht] at h
  induction a using EReal.rec with
  | bot => simp [Ideal.cmp] at h
  | coe r => exact ⟨r, rfl⟩
  | top => simp [Ideal.cmp] at h

/-- An array every entry of which compares |x i| < +∞ true has real entries. -/
private theorem isReal_of_all {s : Shape} (x : FVec Ideal s .f32)
    (hb : Cert.Pre_finite_inputs.S_.BroadcastsInDim s (![] : Fin 0 → Fin s.rank))
    (h : ∀ i, cmpf .olt (Host.absf x) (broadcastInDim s ![] hb (constant Cert.Pre_finite_inputs.S_ .f32 0x7F800000#32)) i = 1#1) :
    IsReal x := fun i => real_of_abs_lt (x i) (h i)

/-- Where the printed precondition answers true, the features, the weights and the bias have real entries. -/
theorem of_pre (x : FVec Ideal Cert.Pre_finite_inputs.S100000x64 .f32) (ei : IVec Cert.Pre_finite_inputs.S2x1600000 32)
    (W : FVec Ideal Cert.Pre_finite_inputs.S64x64 .f32) (b γ β : FVec Ideal Cert.Pre_finite_inputs.S64 .f32)
    (h : Cert.Pre_finite_inputs.fn (F := Ideal) x ei W b γ β = fun _ => 1#1) :
    IsReal x ∧ IsReal W ∧ IsReal b := by
  -- the rank-0 result has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, andi] at h0
  -- the answer is the conjunction ((((all x ∧ all W) ∧ all b) ∧ all γ) ∧ all β): peel it from the outside
  obtain ⟨h1, -⟩ := IntOp.andi_eq_one.1 h0
  obtain ⟨h2, -⟩ := IntOp.andi_eq_one.1 h1
  obtain ⟨h3, hb⟩ := IntOp.andi_eq_one.1 h2
  obtain ⟨hx, hW⟩ := IntOp.andi_eq_one.1 h3
  -- a conjunction over all entries that is true is true at each entry
  exact ⟨isReal_of_all x _ (Host.reduce_andi_all _ _ _ _ _ hx),
    isReal_of_all W _ (Host.reduce_andi_all _ _ _ _ _ hW),
    isReal_of_all b _ (Host.reduce_andi_all _ _ _ _ _ hb)⟩

open Classical in
/-- A finite sum of real numbers, read in the extended reals, is a real number. -/
private theorem sum_isReal {ι : Type} (t : Finset ι) (f : ι → EReal) (hf : IsReal f) :
    ∃ r : ℝ, ∑ j ∈ t, f j = (r : EReal) := by
  induction t using Finset.induction_on with
  | empty => exact ⟨0, by simp⟩
  | insert a t ha ih =>
    obtain ⟨r, hr⟩ := ih
    obtain ⟨q, hq⟩ := hf a
    exact ⟨q + r, by rw [Finset.sum_insert ha, hr, hq, EReal.coe_add]⟩

/-- Adding real updates into a real operand gives a real array: each entry is the operand's entry plus the finite sum of
    the updates that land on it, whichever those are. -/
private theorem scatterAdd_isReal {s si su : Shape} {w : Nat} (d : ScatterDims s si su) (z : FVec Ideal s .f32)
    (idx : IVec si w) (upd : FVec Ideal su .f32) (hz : IsReal z) (hu : IsReal upd) :
    IsReal (Host.scatterAdd d z idx upd) := by
  intro i
  obtain ⟨a, ha⟩ := hz i
  obtain ⟨b, hb⟩ := sum_isReal (Finset.univ.filter (fun j => d.resultIdx? j idx = some i)) upd hu
  refine ⟨a + b, ?_⟩
  show Ideal.hostScatterAdd d z idx upd i = _
  unfold Ideal.hostScatterAdd
  rw [ha, hb, EReal.coe_add]

/-- The neighbour sums of real features are real: each is a finite sum of entries of the features. -/
theorem agg_isReal (x : FVec Ideal Cert.KernelIdeal.S100000x64 .f32) (ei : IVec Cert.KernelIdeal.S2x1600000 32)
    (hx : IsReal x) : IsReal (Cert.KernelIdeal.KTerm.agg (F := Ideal) x ei) := by
  unfold Cert.KernelIdeal.KTerm.agg
  -- the operand is the zero array; every gathered update is an entry of the features
  refine scatterAdd_isReal _ _ _ _ (fun _ => ⟨0, ?_⟩) (fun j => hx _)
  show Ideal.ofBits .f32 0x00000000#32 = _
  rw [Ideal.ofBits_zero_f32, EReal.coe_zero]

end Cert.Finite

end
-- ==== Proof.RTerm.lean ====
/-
  The reference program's result as one function of its six arguments: the host operations of its @main composed,
  the outlined variance, selection and clamp functions written out where they are called.
-/
import proofs.«113949_j43593918054564_1_alg».proof.Proof.Gen.ReferenceIdeal

noncomputable section

namespace Cert.ReferenceIdeal.RTerm

open Idealize.ShloMosaic Idealize.SL.Sem Cert.ReferenceIdeal Cert.ReferenceIdeal.Gen

variable {F : FTy → Type} [FloatOps F]

/-- The neighbour sums as the host computes them: the source row of every edge gathered (a negative source index
    wrapped once by the node count, then clamped into range by the gather), and added into the row its destination names
    (an edge whose destination is out of range adds nothing). -/
def agg (x : FVec F S100000x64 .f32) (ei : IVec S2x1600000 32) : FVec F S100000x64 .f32 :=
  let src : IVec S1600000 32 := shapeCast S1600000 (extractStridedSlice S1x1600000 ![0, 0] ei slices_S2x1600000_S1x1600000_0_0) shapeCasts_S1x1600000_S1600000
  let dst : IVec S1600000 32 := shapeCast S1600000 (extractStridedSlice S1x1600000 ![1, 0] ei slices_S2x1600000_S1x1600000_1_0) shapeCasts_S1x1600000_S1600000
  let srcw : IVec S1600000 32 := select (cmpi .slt src (broadcastInDim S1600000 ![] bcast_S_S1600000 (constantI S_ 32 0#32)))
    (addi src (broadcastInDim S1600000 ![] bcast_S_S1600000 (constantI S_ 32 100000#32))) src
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 x (broadcastInDim S1600000x1 ![0] bcast_S1600000_S1600000x1_0 srcw))

/-- The linear layer over the aggregated features, as the reference computes it. -/
def hid (x : FVec F S100000x64 .f32) (ei : IVec S2x1600000 32) (W : FVec F S64x64 .f32) (b : FVec F S64 .f32) : FVec F S100000x64 .f32 :=
  addf (Host.dotGeneral dot_S100000x64_S64x64_S100000x64_1_0_0_1_n_n none (addf x (agg x ei)) W)
    (broadcastInDim S100000x64 ![0, 1] bcast_S1x64_S100000x64_0_1 (broadcastInDim S1x64 ![1] bcast_S64_S1x64_1 b))

/-- The column means of `h` as a vector: the column sums over the node count. -/
def meanV (h : FVec F S100000x64 .f32) : FVec F S64 .f32 :=
  Host.divf (Host.reduceAdd h (constant S_ .f32 0x00000000#32) reducesTo_S100000x64_S64_d0 h_S_)
    (broadcastInDim S64 ![] bcast_S_S64 (constant S_ .f32 0x47C35000#32))

/-- The outlined variance function at a zero correction: the mean of the squared deviations from the column means,
    selected where the corrected count is positive (a NaN elsewhere). -/
def varV (h : FVec F S100000x64 .f32) : FVec F S64 .f32 :=
  let mu1 : FVec F S1x64 .f32 := Host.divf
    (broadcastInDim S1x64 ![1] bcast_S64_S1x64_1 (Host.reduceAdd h (constant S_ .f32 0x00000000#32) reducesTo_S100000x64_S64_d0 h_S_))
    (broadcastInDim S1x64 ![] bcast_S_S1x64 (constant S_ .f32 0x47C35000#32))
  let d : FVec F S100000x64 .f32 := subf h (broadcastInDim S100000x64 ![0, 1] bcast_S1x64_S100000x64_0_1 mu1)
  let nn : FVec F S_ .f32 := subf (constant S_ .f32 0x47C35000#32) (sitofp .f32 (constantI S_ 32 0#32))
  let v : FVec F S64 .f32 := Host.divf (Host.reduceAdd (mulf d d) (constant S_ .f32 0x00000000#32) reducesTo_S100000x64_S64_d0 h_S_)
    (broadcastInDim S64 ![] bcast_S_S64 nn)
  select (broadcastInDim S64 ![] bcast_S_S64 (cmpf .ogt nn (constant S_ .f32 0x00000000#32))) v
    (broadcastInDim S64 ![] bcast_S_S64 (id (constant S_ .f32 0x7FC00000#32)))

/-- A vector of 64 channels laid over all 100000 rows. -/
def rows (v : FVec F S64 .f32) : FVec F S100000x64 .f32 :=
  broadcastInDim S100000x64 ![0, 1] bcast_S1x64_S100000x64_0_1 (broadcastInDim S1x64 ![1] bcast_S64_S1x64_1 v)

/-- The reference's result. -/
def term (x : FVec F S100000x64 .f32) (ei : IVec S2x1600000 32) (W : FVec F S64x64 .f32) (b γ β : FVec F S64 .f32) :
    FVec F S100000x64 .f32 :=
  let h := hid x ei W b
  let r : FVec F S64 .f32 := Host.rsqrt (addf (varV h) (broadcastInDim S64 ![] bcast_S_S64 (constant S_ .f32 0x3727C5AC#32)))
  maximumf (addf (mulf (mulf (rows γ) (subf h (rows (meanV h)))) (rows r)) (rows β))
    (broadcastInDim S100000x64 ![] bcast_S_S100000x64 (constant S_ .f32 0x00000000#32))

end Cert.ReferenceIdeal.RTerm

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KHost.lean ====
/-
  The two stretches of host operations read back: what each kernel region finds in the arrays it reads, in terms of
  the launch memory and of what the region before left.
-/
import proofs.«113949_j43593918054564_1_alg».proof.Proof.Gen.KernelIdeal.Frame
import proofs.«113949_j43593918054564_1_alg».proof.Proof.KTerm
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-! ## Before the first region -/

/-- The features reach the first region as launched. -/
theorem V1_x : V1 m ρ c main_arg0 = m ((c.tc : Thread nD τ).loc main_arg0) := by
  show StableHlo.after hostOps0 (W0 m ρ c) (Proc.devRef .tc main_arg0) = _
  after_results

/-- The weights reach the first region as launched. -/
theorem V1_W : V1 m ρ c main_arg2 = m ((c.tc : Thread nD τ).loc main_arg2) := by
  show StableHlo.after hostOps0 (W0 m ρ c) (Proc.devRef .tc main_arg2) = _
  after_results

/-- The second array the first region reads holds the neighbour sums of the launched features over the launched edges. -/
theorem V1_agg : V1 m ρ c main_v13
    = KTerm.agg (m ((c.tc : Thread nD τ).loc main_arg0)) (m ((c.tc : Thread nD τ).loc main_arg1)) := by
  show StableHlo.after hostOps0 (W0 m ρ c) (Proc.devRef .tc main_v13) = _
  after_results
  rfl

/-- The fourth holds the bias laid out as one row. -/
theorem V1_b : V1 m ρ c main_v14 = shapeCast S1x64 (m ((c.tc : Thread nD τ).loc main_arg3)) shapeCasts_S64_S1x64 := by
  show StableHlo.after hostOps0 (W0 m ρ c) (Proc.devRef .tc main_v14) = _
  after_results
  rfl

/-! ## Between the regions -/

/-- The second region reads the first region's first output untouched. -/
theorem V3_h : V3 m ρ c main_v15_0 = W2 m ρ c (Proc.devRef .tc main_v15_0) := by
  show StableHlo.after hostOps1 (W2 m ρ c) (Proc.devRef .tc main_v15_0) = _
  after_results

/-- The mean row: the first region's column sums over the node count. -/
theorem V3_mean : V3 m ρ c main_v17
    = Host.divf (W2 m ρ c (Proc.devRef .tc main_v15_1)) (broadcastInDim S1x64 ![] bcast_S_S1x64 (constant S_ .f32 0x47C35000#32)) := by
  show StableHlo.after hostOps1 (W2 m ρ c) (Proc.devRef .tc main_v17) = _
  after_results

/-- The variance row: the column sums of squares over the node count, less the square of the mean row. -/
theorem V3_var : V3 m ρ c main_v21
    = subf (Host.divf (W2 m ρ c (Proc.devRef .tc main_v15_2)) (broadcastInDim S1x64 ![] bcast_S_S1x64 (constant S_ .f32 0x47C35000#32)))
        (mulf (V3 m ρ c main_v17) (V3 m ρ c main_v17)) := by
  rw [V3_mean]
  show StableHlo.after hostOps1 (W2 m ρ c) (Proc.devRef .tc main_v21) = _
  after_results

/-- The scale, still as launched when the first region has ended. -/
theorem W2_gamma : W2 m ρ c (Proc.devRef .tc main_arg4) = m ((c.tc : Thread nD τ).loc main_arg4) := by
  rw [W2_of_ne m ρ c main_arg4 (by decide)]
  show StableHlo.after hostOps0 (W0 m ρ c) (Proc.devRef .tc main_arg4) = _
  after_results

/-- The shift likewise. -/
theorem W2_beta : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results

/-- The scale row. -/
theorem V3_gamma : V3 m ρ c main_v22 = shapeCast S1x64 (m ((c.tc : Thread nD τ).loc main_arg4)) shapeCasts_S64_S1x64 := by
  rw [← W2_gamma m ρ c]
  show StableHlo.after hostOps1 (W2 m ρ c) (Proc.devRef .tc main_v22) = _
  after_results
  rfl

/-- The shift row. -/
theorem V3_beta : V3 m ρ c main_v23 = shapeCast S1x64 (m ((c.tc : Thread nD τ).loc main_arg5)) shapeCasts_S64_S1x64 := by
  rw [← W2_beta m ρ c]
  show StableHlo.after hostOps1 (W2 m ρ c) (Proc.devRef .tc main_v23) = _
  after_results
  rfl

end Cert.KernelIdeal.KHost

end
-- ==== Proof.KPay.lean ====
/-
  The kernels' stored values read at one index, at the extended reals.
-/
import proofs.«113949_j43593918054564_1_alg».proof.Proof.Gen.KernelIdeal.Skeleton
import proofs.«113949_j43593918054564_1_alg».proof.Proof.Spec
import proofs.«113949_j43593918054564_1_alg».proof.Proof.LibLayout

noncomputable section

namespace Cert.KernelIdeal.KPay

open Idealize.ShloMosaic Idealize.ShloMosaic.ValueIdx Cert.KernelIdeal Cert.KernelIdeal.Gen

/-- A rows-by-columns block product accumulated into the zero block, read at `(a, b)`: the sum over the shared
    coordinate of the row's entries times the column's. -/
private theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply _ prec A B _).trans
    ((Ideal.dotGeneral_apply _ prec HostSchedule.single A B _).symm.trans
      (Cert.LibLayout.dotGeneral_plain_apply prec HostSchedule.single A B a b))

/-- The first kernel's stored block: row r of the summed inputs against column j of the weights, plus the bias row's j. -/
theorem pay3_apply (x0 x1 : Vec Ideal S10000x64 .f32) (x2 : Vec Ideal S64x64 .f32) (x3 : Vec Ideal S1x64 .f32)
    (r : Fin 10000) (j : Fin 64) :
    k0_pay3 (F := Ideal) x0 x1 x2 x3 (ix2 r j)
      = (∑ k : Fin 64, (x0 (ix2 r k) + x1 (ix2 r k)) * x2 (ix2 k j)) + x3 (ix2 (0 : Fin 1) j) := by
  -- the trailing sum with the bias row; same-shape casts are the identity, and rounding is exact here
  unfold k0_pay3
  rw [addf_apply, broadcastTo_1b_ab_apply, shapeCast_self, shapeCast_self]
  refine congrArg (· + x3 (ix2 (0 : Fin 1) j)) ?_
  refine (matmul_plain_zero_apply none _ _ r j).trans ?_
  refine Finset.sum_congr rfl fun k _ => ?_
  rw [truncf_apply, truncf_apply, addf_apply]

/-- The sum over the rows of a `[10000, 64]` block, read at column `j`: the inserted row coordinate runs over the rows. -/
private theorem colsum_apply (v : FVec Ideal S10000x64 .f32) (hφ : FKind.Formats .f32)
    (hacc : (0x00000000#32 : BitVec 32) = FKind.add.neutral .f32 hφ) (j : Fin 64) :
    multiReduction (F := Ideal) .add [0] S64 v 0x00000000#32 reduces_S10000x64_S64 hφ hacc (ix1 j)
      = ∑ r : Fin 10000, v (ix2 r j) := by
  refine (Ideal.multiReduction_add_single v _ reduces_S10000x64_S64 hφ hacc (ix1 j)).trans ?_
  refine Finset.sum_congr rfl fun r _ => congrArg v ?_
  funext ax
  apply Fin.ext
  match ax with
  | ⟨0, _⟩ => rfl
  | ⟨1, _⟩ => rfl

/-- The running column sums: what was there plus the block's column sums. -/
theorem pay4_apply (x0 x1 : Vec Ideal S10000x64 .f32) (x2 : Vec Ideal S64x64 .f32) (x3 a : Vec Ideal S1x64 .f32) (j : Fin 64) :
    k0_pay4 (F := Ideal) x0 x1 x2 x3 a (ix2 (0 : Fin 1) j)
      = a (ix2 (0 : Fin 1) j) + ∑ r : Fin 10000, k0_pay3 (F := Ideal) x0 x1 x2 x3 (ix2 r j) := by
  unfold k0_pay4
  rw [addf_apply, shapeCast_self, shapeCast_a_1a_apply]
  exact congrArg (a (ix2 (0 : Fin 1) j) + ·) (colsum_apply _ _ _ j)

/-- The running column sums of squares. -/
theorem pay5_apply (x0 x1 : Vec Ideal S10000x64 .f32) (x2 : Vec Ideal S64x64 .f32) (x3 a : Vec Ideal S1x64 .f32) (j : Fin 64) :
    k0_pay5 (F := Ideal) x0 x1 x2 x3 a (ix2 (0 : Fin 1) j)
      = a (ix2 (0 : Fin 1) j)
        + ∑ r : Fin 10000, k0_pay3 (F := Ideal) x0 x1 x2 x3 (ix2 r j) * k0_pay3 (F := Ideal) x0 x1 x2 x3 (ix2 r j) := by
  unfold k0_pay5
  rw [addf_apply, shapeCast_self, shapeCast_a_1a_apply]
  refine congrArg (a (ix2 (0 : Fin 1) j) + ·) ((colsum_apply _ _ _ j).trans ?_)
  exact Finset.sum_congr rfl fun r _ => mulf_apply _ _ _

/-- The two resets store zero. -/
theorem pay1_apply (y : S1x64.Idx) : k0_pay1 (F := Ideal) y = 0 := by
  show Ideal.ofBits .f32 0x00000000#32 = 0
  exact Ideal.ofBits_zero_f32
theorem pay2_apply (y : S1x64.Idx) : k0_pay2 (F := Ideal) y = 0 := by
  show Ideal.ofBits .f32 0x00000000#32 = 0
  exact Ideal.ofBits_zero_f32

/-- The second kernel's stored block is the normalisation pass over its five loaded blocks
    (`v0` the variance row, `v5` the block of the linear layer, `v7` the mean row, `v13` the scale row, `v17` the shift row). -/
theorem k1_pay1_apply (v0 : Vec Ideal S1x64 .f32) (v5 : Vec Ideal S10000x64 .f32) (v7 v13 v17 : Vec Ideal S1x64 .f32)
    (r : Fin 10000) (j : Fin 64) :
    k1_pay1 (F := Ideal) v0 v5 v7 v13 v17 (ix2 r j)
      = max (v13 (ix2 (0 : Fin 1) j) * ((v5 (ix2 r j) - v7 (ix2 (0 : Fin 1) j)) * Ideal.rsqrt (v0 (ix2 (0 : Fin 1) j) + Cert.Spec.epsLit))
          + v17 (ix2 (0 : Fin 1) j)) 0 := by
  -- every row operand is read at its one row; the small literal is the specification's epsilon
  unfold k1_pay1
  rw [maximumf_apply, addf_apply, mulf_apply, mulf_apply, subf_apply, broadcast_apply]
  rw [broadcastTo_1b_ab_apply, broadcastTo_1b_ab_apply, broadcastTo_1b_ab_apply, broadcastTo_1b_ab_apply]
  simp only [shapeCast_self]
  show max (_ * (_ * Ideal.rsqrt (v0 (ix2 (0 : Fin 1) j) + Ideal.ofBits .f32 0x3727C5AC#32)) + _)
      (Ideal.ofBits .f32 0x00000000#32) = _
  rw [Ideal.ofBits_zero_f32]
  unfold Cert.Spec.epsLit
  rfl

end Cert.KernelIdeal.KPay

end
-- ==== Proof.KReg0.lean ====
/-
  What the first kernel region leaves in its three output arrays, as functions of the arrays it finds.
-/
import proofs.«113949_j43593918054564_1_alg».proof.Proof.Gen.KernelIdeal.Frame
import proofs.«113949_j43593918054564_1_alg».proof.Proof.Spec
import proofs.«113949_j43593918054564_1_alg».proof.Proof.KPay
import Idealize.ShloMosaic.Lib.Pipeline.Value

noncomputable section

namespace Cert.KernelIdeal.KReg0

open Idealize.ShloMosaic Idealize.ShloMosaic.TcCoe Idealize.SL.Sem Idealize.ShloMosaic.ValueIdx
open Idealize.ShloMosaic.Pipeline (Dat Cfg Window)
open Cert.KernelIdeal Cert.KernelIdeal.Gen

section Pieces
variable {F : FTy → Type} [FloatOps F]

theorem hz : (![0, 0] : Fin 2 → Nat) = fun _ => 0 := funext fun a => by fin_cases a <;> rfl

/-- At the first point the linear layer's block is stored whole. -/
theorem pieceA4 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond0_0 i)
    (x0 : Vec F S10000x64 .f32) (x1 : Vec F S10000x64 .f32) (x2 : Vec F S64x64 .f32) (x3 : Vec F S1x64 .f32) :
    out0_A_4 c i arg1 harg1 arg2 harg2 arg3 harg3 arg4 harg4 arg5 harg5 arg6 harg6 arg7 harg7 hc0 x0 x1 x2 x3 = k0_pay3 x0 x1 x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg1.read_unread, harg2.read_unread, harg3.read_unread, harg4.read_unread, harg6.read_unread, harg7.read_unread, View.ld_unit_zero (S := S10000x64) hz, View.ld_unit_zero (S := S64x64) hz, View.ld_unit_zero (S := S1x64) hz]

/-- At the first point the running sums are reset to zero, read back, and the block's column sums added. -/
theorem pieceA5 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond0_0 i)
    (x0 : Vec F S10000x64 .f32) (x1 : Vec F S10000x64 .f32) (x2 : Vec F S64x64 .f32) (x3 : Vec F S1x64 .f32) :
    out0_A_5 c i arg1 harg1 arg2 harg2 arg3 harg3 arg4 harg4 arg5 harg5 arg6 harg6 arg7 harg7 hc0 x0 x1 x2 x3 = k0_pay4 x0 x1 x2 x3 (k0_pay1 (F := F)) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg6.read_unread, harg7.read_unread, View.ld_unit_zero (S := S10000x64) hz, View.ld_unit_zero (S := S64x64) hz, View.ld_unit_zero (S := S1x64) hz]

/-- The same for the running sums of squares. -/
theorem pieceA6 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond0_0 i)
    (x0 : Vec F S10000x64 .f32) (x1 : Vec F S10000x64 .f32) (x2 : Vec F S64x64 .f32) (x3 : Vec F S1x64 .f32) :
    out0_A_6 c i arg1 harg1 arg2 harg2 arg3 harg3 arg4 harg4 arg5 harg5 arg6 harg6 arg7 harg7 hc0 x0 x1 x2 x3 = k0_pay5 x0 x1 x2 x3 (k0_pay2 (F := F)) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg6.read_unread, harg7.read_unread, View.ld_unit_zero (S := S10000x64) hz, View.ld_unit_zero (S := S64x64) hz, View.ld_unit_zero (S := S1x64) hz]

/-- At a later point the linear layer's block is stored whole. -/
theorem pieceB4 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i)
    (x0 : Vec F S10000x64 .f32) (x1 : Vec F S10000x64 .f32) (x2 : Vec F S64x64 .f32) (x3 : Vec F S1x64 .f32) (xo5 : Vec F S1x64 .f32) (xo6 : Vec F S1x64 .f32) :
    out0_B_4 c i arg1 harg1 arg2 harg2 arg3 harg3 arg4 harg4 arg5 harg5 arg6 harg6 arg7 harg7 hc0 x0 x1 x2 x3 xo5 xo6 = k0_pay3 x0 x1 x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero hz]
  simp only [View.readAt_eq_ld, harg1.read_unread, harg2.read_unread, harg3.read_unread, harg4.read_unread, harg6.read_unread, harg7.read_unread, View.ld_unit_zero (S := S10000x64) hz, View.ld_unit_zero (S := S64x64) hz, View.ld_unit_zero (S := S1x64) hz]

/-- At a later point the block's column sums are added to the carried sums. -/
theorem pieceB5 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i)
    (x0 : Vec F S10000x64 .f32) (x1 : Vec F S10000x64 .f32) (x2 : Vec F S64x64 .f32) (x3 : Vec F S1x64 .f32) (xo5 : Vec F S1x64 .f32) (xo6 : Vec F S1x64 .f32) :
    out0_B_5 c i arg1 harg1 arg2 harg2 arg3 harg3 arg4 harg4 arg5 harg5 arg6 harg6 arg7 harg7 hc0 x0 x1 x2 x3 xo5 xo6 = k0_pay4 x0 x1 x2 x3 xo5 := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero hz]
  simp only [View.readAt_eq_ld, harg1.read_unread, harg2.read_unread, harg3.read_unread, harg4.read_unread, harg6.read_unread, harg7.read_unread, View.ld_unit_zero (S := S10000x64) hz, View.ld_unit_zero (S := S64x64) hz, View.ld_unit_zero (S := S1x64) hz]

/-- The same for the carried sums of squares. -/
theorem pieceB6 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i)
    (x0 : Vec F S10000x64 .f32) (x1 : Vec F S10000x64 .f32) (x2 : Vec F S64x64 .f32) (x3 : Vec F S1x64 .f32) (xo5 : Vec F S1x64 .f32) (xo6 : Vec F S1x64 .f32) :
    out0_B_6 c i arg1 harg1 arg2 harg2 arg3 harg3 arg4 harg4 arg5 harg5 arg6 harg6 arg7 harg7 hc0 x0 x1 x2 x3 xo5 xo6 = k0_pay5 x0 x1 x2 x3 xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero hz]
  simp only [View.readAt_eq_ld, harg1.read_unread, harg2.read_unread, harg3.read_unread, harg4.read_unread, harg6.read_unread, harg7.read_unread, View.ld_unit_zero (S := S10000x64) hz, View.ld_unit_zero (S := S64x64) hz, View.ld_unit_zero (S := S1x64) hz]

end Pieces

variable (V : (c : Dev nD) → (b : Ref sig .tc) → Buf (Elt Ideal) ((c : Thread nD τ).loc b)) (c : Dev nD)

/-- The linear layer's output from four arrays: features, neighbour sums, weights, and the bias as a row. -/
def hOfArr (x agg : Cert.Spec.SN.Idx → EReal) (W : Cert.Spec.SW.Idx → EReal) (b2 : Cert.Spec.SR.Idx → EReal) :
    Cert.Spec.SN.Idx → EReal :=
  Cert.Spec.lin (fun i => x i + agg i) W (fun j => b2 (ix2 (0 : Fin 1) (j 0)))

/-- The same at the four arrays the region reads as it finds them. -/
def hOf : Cert.Spec.SN.Idx → EReal := hOfArr (V c main_arg0) (V c main_v13) (V c main_arg2) (V c main_v14)

/-! ## The blocks the region reads -/

/-- The grid has ten points. -/
theorem N10 : cfg0.N = 10 := N_0

/-- Row `r` of block `t` is row `10000 t + r` of the array. -/
def rowOf (t : Fin cfg0.N) (r : Fin 10000) : Fin 100000 :=
  ⟨10000 * t.val + r.val, by have := t.isLt; have h : cfg0.N = 10 := N10; omega⟩

/-- The features' block, the neighbour sums' block, the weights and the bias as the region stages them at a point. -/
abbrev xblk (t : Fin cfg0.N) : Vec Ideal S10000x64 .f32 := iblk0 V c 0 t
abbrev ablk (t : Fin cfg0.N) : Vec Ideal S10000x64 .f32 := iblk0 V c 1 t
abbrev wblk (t : Fin cfg0.N) : Vec Ideal S64x64 .f32 := iblk0 V c 2 t
abbrev bblk (t : Fin cfg0.N) : Vec Ideal S1x64 .f32 := iblk0 V c 3 t
/-- The four arrays those blocks are cut from. -/
abbrev xarr : Cert.Spec.SN.Idx → EReal := V c main_arg0
abbrev aarr : Cert.Spec.SN.Idx → EReal := V c main_v13
abbrev warr : Cert.Spec.SW.Idx → EReal := V c main_arg2
abbrev barr : Cert.Spec.SR.Idx → EReal := V c main_v14

theorem xblk_apply (t : Fin cfg0.N) (r : Fin 10000) (j : Fin 64) :
    xblk V c t (ix2 r j) = xarr V c (ix2 (rowOf t r) j) := by
  have hi : win0_0.index t 0 = t.val ∧ win0_0.index t 1 = 0 :=
    (by decide +kernel : ∀ t : Fin grid0.N, win0_0.index t 0 = t.val ∧ win0_0.index t 1 = 0) t
  unfold xblk iblk0
  rw [View.read_apply]
  show V c main_arg0 _ = V c main_arg0 _
  congr 1
  funext a
  apply Fin.ext
  match a with
  | ⟨0, _⟩ => show win0_0.index t 0 * 10000 + 1 * r.val = 10000 * t.val + r.val; rw [hi.1]; omega
  | ⟨1, _⟩ => show win0_0.index t 1 * 64 + 1 * j.val = j.val; rw [hi.2]; omega

theorem ablk_apply (t : Fin cfg0.N) (r : Fin 10000) (j : Fin 64) :
    ablk V c t (ix2 r j) = aarr V c (ix2 (rowOf t r) j) := by
  have hi : win0_1.index t 0 = t.val ∧ win0_1.index t 1 = 0 :=
    (by decide +kernel : ∀ t : Fin grid0.N, win0_1.index t 0 = t.val ∧ win0_1.index t 1 = 0) t
  unfold ablk iblk0
  rw [View.read_apply]
  show V c main_v13 _ = V c main_v13 _
  congr 1
  funext a
  apply Fin.ext
  match a with
  | ⟨0, _⟩ => show win0_1.index t 0 * 10000 + 1 * r.val = 10000 * t.val + r.val; rw [hi.1]; omega
  | ⟨1, _⟩ => show win0_1.index t 1 * 64 + 1 * j.val = j.val; rw [hi.2]; omega

theorem wblk_apply (t : Fin cfg0.N) (k : Fin 64) (j : Fin 64) :
    wblk V c t (ix2 k j) = warr V c (ix2 k j) := by
  have hi : win0_2.index t 0 = 0 ∧ win0_2.index t 1 = 0 :=
    (by decide +kernel : ∀ t : Fin grid0.N, win0_2.index t 0 = 0 ∧ win0_2.index t 1 = 0) t
  unfold wblk iblk0
  rw [View.read_apply]
  show V c main_arg2 _ = V c main_arg2 _
  congr 1
  funext a
  apply Fin.ext
  match a with
  | ⟨0, _⟩ => show win0_2.index t 0 * 64 + 1 * k.val = k.val; rw [hi.1]; omega
  | ⟨1, _⟩ => show win0_2.index t 1 * 64 + 1 * j.val = j.val; rw [hi.2]; omega

theorem bblk_apply (t : Fin cfg0.N) (j : Fin 64) :
    bblk V c t (ix2 (0 : Fin 1) j) = barr V c (ix2 (0 : Fin 1) j) := by
  have hi : win0_3.index t 0 = 0 ∧ win0_3.index t 1 = 0 :=
    (by decide +kernel : ∀ t : Fin grid0.N, win0_3.index t 0 = 0 ∧ win0_3.index t 1 = 0) t
  unfold bblk iblk0
  rw [View.read_apply]
  show V c main_v14 _ = V c main_v14 _
  congr 1
  funext a
  apply Fin.ext
  match a with
  | ⟨0, _⟩ => show win0_3.index t 0 * 1 + 1 * (0 : Fin 1).val = (0 : Fin 1).val; rw [hi.1]; omega
  | ⟨1, _⟩ => show win0_3.index t 1 * 64 + 1 * j.val = j.val; rw [hi.2]; omega

/-- The block the linear layer computes at point `t` is rows `10000 t …` of its output. -/
theorem pay3_at (t : Fin cfg0.N) (r : Fin 10000) (j : Fin 64) :
    k0_pay3 (F := Ideal) (xblk V c t) (ablk V c t) (wblk V c t) (bblk V c t) (ix2 r j) = hOf V c (ix2 (rowOf t r) j) := by
  refine (Cert.KernelIdeal.KPay.pay3_apply (xblk V c t) (ablk V c t) (wblk V c t) (bblk V c t) r j).trans ?_
  simp only [xblk_apply, ablk_apply, wblk_apply, bblk_apply]
  rfl

/-! ## What the region's outputs hold after each point -/

/-- After any point the first output's block holds that point's rows of the linear layer's output. -/
theorem out4_apply (t : Fin cfg0.N) (r : Fin 10000) (j : Fin 64) :
    (outsAt0 V c t.val t.isLt).1 (ix2 r j) = hOf V c (ix2 (rowOf t r) j) := by
  by_cases hA : t.val % 10 = 0
  · rw [outsAt0_A V c t hA]
    dsimp only
    refine (congrFun (pieceA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr hA) (xblk V c t) (ablk V c t) (wblk V c t) (bblk V c t)) (ix2 r j)).trans ?_
    exact pay3_at V c t r j
  · have hB : ¬t.val % 10 = 0 := hA
    rw [outsAt0_B V c t hB]
    dsimp only
    refine (congrFun (pieceB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => hB ((hcond0_0 t).mp h)) (xblk V c t) (ablk V c t) (wblk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2) (ix2 r j)).trans ?_
    exact pay3_at V c t r j

/-- Column `j` of the linear layer's output read down the rows, as a sequence (zero past the last row). -/
def colSeq (j : Fin 64) : ℕ → EReal := fun i => if h : i < 100000 then hOf V c (ix2 ⟨i, h⟩ j) else 0
/-- The squares of that sequence. -/
def sqSeq (j : Fin 64) : ℕ → EReal := fun i => if h : i < 100000 then hOf V c (ix2 ⟨i, h⟩ j) * hOf V c (ix2 ⟨i, h⟩ j) else 0

/-- The column sums of the block computed at point `t` are a stretch of 10000 terms of the column's sequence. -/
theorem blockSum (t : Fin cfg0.N) (j : Fin 64) :
    ∑ r : Fin 10000, k0_pay3 (F := Ideal) (xblk V c t) (ablk V c t) (wblk V c t) (bblk V c t) (ix2 r j)
      = ∑ r ∈ Finset.range 10000, colSeq V c j (10000 * t.val + r) := by
  rw [Finset.sum_range]
  refine Finset.sum_congr rfl fun r _ => ?_
  rw [pay3_at]
  unfold colSeq
  rw [dif_pos (show 10000 * t.val + r.val < 100000 from (rowOf t r).isLt)]
  rfl

theorem blockSumSq (t : Fin cfg0.N) (j : Fin 64) :
    ∑ r : Fin 10000, k0_pay3 (F := Ideal) (xblk V c t) (ablk V c t) (wblk V c t) (bblk V c t) (ix2 r j) * k0_pay3 (F := Ideal) (xblk V c t) (ablk V c t) (wblk V c t) (bblk V c t) (ix2 r j)
      = ∑ r ∈ Finset.range 10000, sqSeq V c j (10000 * t.val + r) := by
  rw [Finset.sum_range]
  refine Finset.sum_congr rfl fun r _ => ?_
  rw [pay3_at]
  unfold sqSeq
  rw [dif_pos (show 10000 * t.val + r.val < 100000 from (rowOf t r).isLt)]
  rfl

/-- At the first point the running sums are that point's block sums. -/
theorem stepA5 (t : Fin cfg0.N) (hA : t.val % 10 = 0) (j : Fin 64) :
    (outsAt0 V c t.val t.isLt).2.1 (ix2 (0 : Fin 1) j) = ∑ r ∈ Finset.range 10000, colSeq V c j (10000 * t.val + r) := by
  rw [outsAt0_A V c t hA]
  dsimp only
  refine (congrFun (pieceA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr hA) (xblk V c t) (ablk V c t) (wblk V c t) (bblk V c t)) (ix2 (0 : Fin 1) j)).trans ?_
  refine (Cert.KernelIdeal.KPay.pay4_apply (xblk V c t) (ablk V c t) (wblk V c t) (bblk V c t) (k0_pay1 (F := Ideal)) j).trans ?_
  rw [Cert.KernelIdeal.KPay.pay1_apply, zero_add]
  exact blockSum V c t j

theorem stepA6 (t : Fin cfg0.N) (hA : t.val % 10 = 0) (j : Fin 64) :
    (outsAt0 V c t.val t.isLt).2.2 (ix2 (0 : Fin 1) j) = ∑ r ∈ Finset.range 10000, sqSeq V c j (10000 * t.val + r) := by
  rw [outsAt0_A V c t hA]
  dsimp only
  refine (congrFun (pieceA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr hA) (xblk V c t) (ablk V c t) (wblk V c t) (bblk V c t)) (ix2 (0 : Fin 1) j)).trans ?_
  refine (Cert.KernelIdeal.KPay.pay5_apply (xblk V c t) (ablk V c t) (wblk V c t) (bblk V c t) (k0_pay2 (F := Ideal)) j).trans ?_
  rw [Cert.KernelIdeal.KPay.pay2_apply, zero_add]
  exact blockSumSq V c t j

/-- At a later point the running sums grow by that point's block sums. -/
theorem stepB5 (t : Fin cfg0.N) (hB : ¬t.val % 10 = 0) (j : Fin 64) :
    (outsAt0 V c t.val t.isLt).2.1 (ix2 (0 : Fin 1) j)
      = (outsAt0 V c (t.val - 1) (Nat.lt_of_le_of_lt (Nat.sub_le _ _) t.isLt)).2.1 (ix2 (0 : Fin 1) j) + ∑ r ∈ Finset.range 10000, colSeq V c j (10000 * t.val + r) := by
  rw [outsAt0_B V c t hB]
  dsimp only
  refine (congrFun (pieceB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => hB ((hcond0_0 t).mp h)) (xblk V c t) (ablk V c t) (wblk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) j)).trans ?_
  refine (Cert.KernelIdeal.KPay.pay4_apply (xblk V c t) (ablk V c t) (wblk V c t) (bblk V c t) (outsAt0 V c (t.val - 1) (Nat.lt_of_le_of_lt (Nat.sub_le _ _) t.isLt)).2.1 j).trans ?_
  rw [blockSum V c t j]

theorem stepB6 (t : Fin cfg0.N) (hB : ¬t.val % 10 = 0) (j : Fin 64) :
    (outsAt0 V c t.val t.isLt).2.2 (ix2 (0 : Fin 1) j)
      = (outsAt0 V c (t.val - 1) (Nat.lt_of_le_of_lt (Nat.sub_le _ _) t.isLt)).2.2 (ix2 (0 : Fin 1) j) + ∑ r ∈ Finset.range 10000, sqSeq V c j (10000 * t.val + r) := by
  rw [outsAt0_B V c t hB]
  dsimp only
  refine (congrFun (pieceB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => hB ((hcond0_0 t).mp h)) (xblk V c t) (ablk V c t) (wblk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) j)).trans ?_
  refine (Cert.KernelIdeal.KPay.pay5_apply (xblk V c t) (ablk V c t) (wblk V c t) (bblk V c t) (outsAt0 V c (t.val - 1) (Nat.lt_of_le_of_lt (Nat.sub_le _ _) t.isLt)).2.2 j).trans ?_
  rw [blockSumSq V c t j]

/-- After point `n` the running sums hold the column sums over the first `10000 (n + 1)` rows. -/
theorem outs5 : ∀ (n : ℕ) (h : n < cfg0.N) (j : Fin 64),
    (outsAt0 V c n h).2.1 (ix2 (0 : Fin 1) j) = ∑ i ∈ Finset.range (10000 * (n + 1)), colSeq V c j i
  | 0, h, j => by
    refine (stepA5 V c ⟨0, h⟩ rfl j).trans ?_
    show ∑ r ∈ Finset.range 10000, colSeq V c j (10000 * 0 + r) = _
    simp only [Nat.mul_zero, Nat.zero_add, Nat.mul_one]
  | n + 1, h, j => by
    have hN : cfg0.N = 10 := N10
    have hB : ¬(⟨n + 1, h⟩ : Fin cfg0.N).val % 10 = 0 := by dsimp only; omega
    refine (stepB5 V c ⟨n + 1, h⟩ hB j).trans ?_
    show (outsAt0 V c n _).2.1 (ix2 (0 : Fin 1) j) + ∑ r ∈ Finset.range 10000, colSeq V c j (10000 * (n + 1) + r) = _
    rw [outs5 n (Nat.lt_of_succ_lt h) j, show 10000 * (n + 1 + 1) = 10000 * (n + 1) + 10000 from by omega, Finset.sum_range_add]

theorem outs6 : ∀ (n : ℕ) (h : n < cfg0.N) (j : Fin 64),
    (outsAt0 V c n h).2.2 (ix2 (0 : Fin 1) j) = ∑ i ∈ Finset.range (10000 * (n + 1)), sqSeq V c j i
  | 0, h, j => by
    refine (stepA6 V c ⟨0, h⟩ rfl j).trans ?_
    show ∑ r ∈ Finset.range 10000, sqSeq V c j (10000 * 0 + r) = _
    simp only [Nat.mul_zero, Nat.zero_add, Nat.mul_one]
  | n + 1, h, j => by
    have hN : cfg0.N = 10 := N10
    have hB : ¬(⟨n + 1, h⟩ : Fin cfg0.N).val % 10 = 0 := by dsimp only; omega
    refine (stepB6 V c ⟨n + 1, h⟩ hB j).trans ?_
    show (outsAt0 V c n _).2.2 (ix2 (0 : Fin 1) j) + ∑ r ∈ Finset.range 10000, sqSeq V c j (10000 * (n + 1) + r) = _
    rw [outs6 n (Nat.lt_of_succ_lt h) j, show 10000 * (n + 1 + 1) = 10000 * (n + 1) + 10000 from by omega, Finset.sum_range_add]

/-! ## The three arrays after the region -/

/-- A block of the first output array, read at a row and a column. -/
theorem read4_apply (G : Cert.Spec.SN.Idx → EReal) (t : Fin cfg0.N) (r : Fin 10000) (j : Fin 64) :
    (((cfg0.win 4).blk t).view.read (Elt Ideal) G : S10000x64.Idx → EReal) (ix2 r j) = G (ix2 (rowOf t r) j) := by
  have hi : win0_4.index t 0 = t.val ∧ win0_4.index t 1 = 0 :=
    (by decide +kernel : ∀ t : Fin grid0.N, win0_4.index t 0 = t.val ∧ win0_4.index t 1 = 0) t
  rw [View.read_apply]
  show G _ = G _
  congr 1
  funext a
  apply Fin.ext
  match a with
  | ⟨0, _⟩ => show win0_4.index t 0 * 10000 + 1 * r.val = 10000 * t.val + r.val; rw [hi.1]; omega
  | ⟨1, _⟩ => show win0_4.index t 1 * 64 + 1 * j.val = j.val; rw [hi.2]; omega

/-- The one block of the second output array, read at a column. -/
theorem read5_apply (G : Cert.Spec.SR.Idx → EReal) (t : Fin cfg0.N) (j : Fin 64) :
    (((cfg0.win 5).blk t).view.read (Elt Ideal) G : S1x64.Idx → EReal) (ix2 (0 : Fin 1) j) = G (ix2 (0 : Fin 1) j) := by
  have hi : win0_5.index t 0 = 0 ∧ win0_5.index t 1 = 0 :=
    (by decide +kernel : ∀ t : Fin grid0.N, win0_5.index t 0 = 0 ∧ win0_5.index t 1 = 0) t
  rw [View.read_apply]
  show G _ = G _
  congr 1
  funext a
  apply Fin.ext
  match a with
  | ⟨0, _⟩ => show win0_5.index t 0 * 1 + 1 * (0 : Fin 1).val = (0 : Fin 1).val; rw [hi.1]; omega
  | ⟨1, _⟩ => show win0_5.index t 1 * 64 + 1 * j.val = j.val; rw [hi.2]; omega

/-- The one block of the third output array, read at a column. -/
theorem read6_apply (G : Cert.Spec.SR.Idx → EReal) (t : Fin cfg0.N) (j : Fin 64) :
    (((cfg0.win 6).blk t).view.read (Elt Ideal) G : S1x64.Idx → EReal) (ix2 (0 : Fin 1) j) = G (ix2 (0 : Fin 1) j) := by
  have hi : win0_6.index t 0 = 0 ∧ win0_6.index t 1 = 0 :=
    (by decide +kernel : ∀ t : Fin grid0.N, win0_6.index t 0 = 0 ∧ win0_6.index t 1 = 0) t
  rw [View.read_apply]
  show G _ = G _
  congr 1
  funext a
  apply Fin.ext
  match a with
  | ⟨0, _⟩ => show win0_6.index t 0 * 1 + 1 * (0 : Fin 1).val = (0 : Fin 1).val; rw [hi.1]; omega
  | ⟨1, _⟩ => show win0_6.index t 1 * 64 + 1 * j.val = j.val; rw [hi.2]; omega

/-- The whole sequence of a column sums to the column's sum. -/
theorem colSeq_total (j : Fin 64) : ∑ i ∈ Finset.range 100000, colSeq V c j i = Cert.Spec.colSum (hOf V c) j := by
  rw [Finset.sum_range]
  unfold Cert.Spec.colSum
  refine Finset.sum_congr rfl fun i _ => ?_
  unfold colSeq
  rw [dif_pos i.isLt]

theorem sqSeq_total (j : Fin 64) : ∑ i ∈ Finset.range 100000, sqSeq V c j i = Cert.Spec.colSumSq (hOf V c) j := by
  rw [Finset.sum_range]
  unfold Cert.Spec.colSumSq
  refine Finset.sum_congr rfl fun i _ => ?_
  unfold sqSeq
  rw [dif_pos i.isLt]

/-- Every point writes back its rows of the linear layer's output. -/
theorem flushed4 (t : Fin cfg0.N) (hf : (cfg0.win 4).flush t = true) :
    (dat0 V c).flushed 4 t = ((cfg0.win 4).blk t).view.read (Elt Ideal) (hOf V c) := by
  show (cfg0.win 4).cut (grid0.coords t) ((dat0 V c).after 4 t) = _
  rw [after0_4]
  funext (y : S10000x64.Idx)
  obtain ⟨r, j, rfl⟩ : ∃ r j, y = ix2 r j := ⟨y 0, y 1, eq_ix2 y⟩
  exact (out4_apply V c t r j).trans (read4_apply (hOf V c) t r j).symm

/-- The last point writes back the column sums over all rows. -/
theorem flushed5 (t : Fin cfg0.N) (hf : (cfg0.win 5).flush t = true) :
    (dat0 V c).flushed 5 t = ((cfg0.win 5).blk t).view.read (Elt Ideal)
      (fun y : Cert.Spec.SR.Idx => Cert.Spec.colSum (hOf V c) (y 1)) := by
  have hN : cfg0.N = 10 := N10
  have h9 : t.val = 9 := by have := (flush0_5 t).mp hf; have := t.isLt; omega
  show (cfg0.win 5).cut (grid0.coords t) ((dat0 V c).after 5 t) = _
  rw [after0_5]
  funext (y : S1x64.Idx)
  obtain ⟨z, j, rfl⟩ : ∃ z j, y = ix2 z j := ⟨y 0, y 1, eq_ix2 y⟩
  obtain rfl : z = 0 := Subsingleton.elim _ _
  refine ((outs5 V c t.val t.isLt j).trans ?_).trans
    (read5_apply (fun y : Cert.Spec.SR.Idx => Cert.Spec.colSum (hOf V c) (y 1)) t j).symm
  rw [h9]
  exact colSeq_total V c j

/-- The last point writes back the column sums of squares over all rows. -/
theorem flushed6 (t : Fin cfg0.N) (hf : (cfg0.win 6).flush t = true) :
    (dat0 V c).flushed 6 t = ((cfg0.win 6).blk t).view.read (Elt Ideal)
      (fun y : Cert.Spec.SR.Idx => Cert.Spec.colSumSq (hOf V c) (y 1)) := by
  have hN : cfg0.N = 10 := N10
  have h9 : t.val = 9 := by have := (flush0_6 t).mp hf; have := t.isLt; omega
  show (cfg0.win 6).cut (grid0.coords t) ((dat0 V c).after 6 t) = _
  rw [after0_6]
  funext (y : S1x64.Idx)
  obtain ⟨z, j, rfl⟩ : ∃ z j, y = ix2 z j := ⟨y 0, y 1, eq_ix2 y⟩
  obtain rfl : z = 0 := Subsingleton.elim _ _
  refine ((outs6 V c t.val t.isLt j).trans ?_).trans
    (read6_apply (fun y : Cert.Spec.SR.Idx => Cert.Spec.colSumSq (hOf V c) (y 1)) t j).symm
  rw [h9]
  exact sqSeq_total V c j

/-- Row `i` of the first output array lies in the block of point `i / 10000`. -/
theorem cover4 (i : Cert.Spec.SN.Idx) :
    ∃ t : Fin cfg0.N, (cfg0.win 4).flush t = true ∧ i ∈ ((cfg0.win 4).blk t).view.set := by
  have hN : cfg0.N = 10 := N10
  have h0 : (i 0).val < 100000 := (i 0).isLt
  have h1 : (i 1).val < 64 := (i 1).isLt
  have hi : ∀ t : Fin cfg0.N, win0_4.index t 0 = t.val ∧ win0_4.index t 1 = 0 :=
    (by decide +kernel : ∀ t : Fin grid0.N, win0_4.index t 0 = t.val ∧ win0_4.index t 1 = 0)
  have hx : ∀ t : Fin cfg0.N, win0_4.xsize (grid0.coords t) 0 = 10000 ∧ win0_4.xsize (grid0.coords t) 1 = 64 :=
    (by decide +kernel : ∀ t : Fin grid0.N, win0_4.xsize (grid0.coords t) 0 = 10000 ∧ win0_4.xsize (grid0.coords t) 1 = 64)
  obtain ⟨t, ht⟩ : ∃ t : Fin cfg0.N, t.val = (i 0).val / 10000 := ⟨⟨(i 0).val / 10000, by omega⟩, rfl⟩
  refine ⟨t, flush0_4 t, ?_⟩
  show i ∈ ((View.whole main_v15_0).slice (win0_4.rect t)).set
  rw [View.set_slice_whole, Rect.mem_set_unit]
  intro a
  match a with
  | ⟨0, _⟩ =>
    show win0_4.index t 0 * 10000 ≤ (i 0 : Nat) ∧ (i 0 : Nat) < win0_4.index t 0 * 10000 + win0_4.xsize (grid0.coords t) 0
    rw [(hi t).1, (hx t).1]
    omega
  | ⟨1, _⟩ =>
    show win0_4.index t 1 * 64 ≤ (i 1 : Nat) ∧ (i 1 : Nat) < win0_4.index t 1 * 64 + win0_4.xsize (grid0.coords t) 1
    rw [(hi t).2, (hx t).2]
    omega

/-- The one block of the second output array is the whole array, and the last point writes it back. -/
theorem cover5 (i : Cert.Spec.SR.Idx) :
    ∃ t : Fin cfg0.N, (cfg0.win 5).flush t = true ∧ i ∈ ((cfg0.win 5).blk t).view.set := by
  have h0 : (i 0).val < 1 := (i 0).isLt
  have h1 : (i 1).val < 64 := (i 1).isLt
  refine ⟨t0_9, (flush0_5 t0_9).mpr rfl, ?_⟩
  show i ∈ ((View.whole main_v15_1).slice (win0_5.rect t0_9)).set
  rw [View.set_slice_whole, Rect.mem_set_unit]
  intro a
  match a with
  | ⟨0, _⟩ =>
    show win0_5.index t0_9 0 * win0_5.size 0 ≤ (i 0 : Nat) ∧ (i 0 : Nat) < win0_5.index t0_9 0 * win0_5.size 0 + win0_5.xsize (grid0.coords t0_9) 0
    rw [show win0_5.index t0_9 0 * win0_5.size 0 = 0 from by decide +kernel, show win0_5.xsize (grid0.coords t0_9) 0 = 1 from by decide +kernel]; omega
  | ⟨1, _⟩ =>
    show win0_5.index t0_9 1 * win0_5.size 1 ≤ (i 1 : Nat) ∧ (i 1 : Nat) < win0_5.index t0_9 1 * win0_5.size 1 + win0_5.xsize (grid0.coords t0_9) 1
    rw [show win0_5.index t0_9 1 * win0_5.size 1 = 0 from by decide +kernel, show win0_5.xsize (grid0.coords t0_9) 1 = 64 from by decide +kernel]; omega

/-- The same for the third output array. -/
theorem cover6 (i : Cert.Spec.SR.Idx) :
    ∃ t : Fin cfg0.N, (cfg0.win 6).flush t = true ∧ i ∈ ((cfg0.win 6).blk t).view.set := by
  have h0 : (i 0).val < 1 := (i 0).isLt
  have h1 : (i 1).val < 64 := (i 1).isLt
  refine ⟨t0_9, (flush0_6 t0_9).mpr rfl, ?_⟩
  show i ∈ ((View.whole main_v15_2).slice (win0_6.rect t0_9)).set
  rw [View.set_slice_whole, Rect.mem_set_unit]
  intro a
  match a with
  | ⟨0, _⟩ =>
    show win0_6.index t0_9 0 * win0_6.size 0 ≤ (i 0 : Nat) ∧ (i 0 : Nat) < win0_6.index t0_9 0 * win0_6.size 0 + win0_6.xsize (grid0.coords t0_9) 0
    rw [show win0_6.index t0_9 0 * win0_6.size 0 = 0 from by decide +kernel, show win0_6.xsize (grid0.coords t0_9) 0 = 1 from by decide +kernel]; omega
  | ⟨1, _⟩ =>
    show win0_6.index t0_9 1 * win0_6.size 1 ≤ (i 1 : Nat) ∧ (i 1 : Nat) < win0_6.index t0_9 1 * win0_6.size 1 + win0_6.xsize (grid0.coords t0_9) 1
    rw [show win0_6.index t0_9 1 * win0_6.size 1 = 0 from by decide +kernel, show win0_6.xsize (grid0.coords t0_9) 1 = 64 from by decide +kernel]; omega

/-- Output array 4 ends at the linear layer's output. -/
theorem arr4 : ((dat0 V c).arrAt 4 cfg0.N : Cert.Spec.SN.Idx → EReal) = hOf V c :=
  (dat0 V c).arrAt_eq_of_cover 4 (hOf V c) (flushed4 V c) (fun i => cover4 i)

/-- Output array 5 ends at the column sums of the linear layer's output. -/
theorem arr5 : ((dat0 V c).arrAt 5 cfg0.N : Cert.Spec.SR.Idx → EReal) = fun y => Cert.Spec.colSum (hOf V c) (y 1) :=
  (dat0 V c).arrAt_eq_of_cover 5 (fun y : Cert.Spec.SR.Idx => Cert.Spec.colSum (hOf V c) (y 1)) (flushed5 V c) (fun i => cover5 i)

/-- Output array 6 ends at the column sums of its squares. -/
theorem arr6 : ((dat0 V c).arrAt 6 cfg0.N : Cert.Spec.SR.Idx → EReal) = fun y => Cert.Spec.colSumSq (hOf V c) (y 1) :=
  (dat0 V c).arrAt_eq_of_cover 6 (fun y : Cert.Spec.SR.Idx => Cert.Spec.colSumSq (hOf V c) (y 1)) (flushed6 V c) (fun i => cover6 i)

end Cert.KernelIdeal.KReg0

end
-- ==== Proof.KReg1.lean ====
/-
  What the second kernel region leaves in its output array, as a function of the five arrays it finds.
-/
import proofs.«113949_j43593918054564_1_alg».proof.Proof.Gen.KernelIdeal.Frame
import proofs.«113949_j43593918054564_1_alg».proof.Proof.Spec
import proofs.«113949_j43593918054564_1_alg».proof.Proof.KPay
import Idealize.ShloMosaic.Lib.Pipeline.Value

noncomputable section

namespace Cert.KernelIdeal.KReg1

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The origin of a two-axis buffer, as the constant function. -/
private theorem origin_zero : (![0, 0] : Fin 2 → Nat) = fun _ => 0 := funext fun a => by fin_cases a <;> rfl

/-- The index maps over the ten grid points: the feature window and the output window sit at the same row block,
    the point's own number, in column block 0; the four statistic rows never move. -/
private theorem idx_rel : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every one of the ten row blocks is some point's. -/
private theorem idx_onto : ∀ q : Fin 10, ∃ t : Fin cfg1.N, win1_5.index t (0 : Fin 2) = q.val ∧ win1_5.index t (1 : Fin 2) = 0 :=
  (by decide +kernel : ∀ q : Fin 10, ∃ t : Fin grid1.N, win1_5.index t (0 : Fin 2) = q.val ∧ win1_5.index t (1 : Fin 2) = 0)

variable (V : (c : Dev nD) → (b : Ref sig .tc) → Buf (Elt Ideal) ((c : Thread nD τ).loc b)) (c : Dev nD)

/-- The normalisation pass over the five arrays the region finds. -/
private abbrev G : Cert.Spec.SN.Idx → EReal :=
  Cert.Spec.normRows (V c main_v15_0 : Cert.Spec.SN.Idx → EReal) (V c main_v17 : Cert.Spec.SR.Idx → EReal)
    (V c main_v21 : Cert.Spec.SR.Idx → EReal) (V c main_v22 : Cert.Spec.SR.Idx → EReal) (V c main_v23 : Cert.Spec.SR.Idx → EReal)

/-- The feature window's block at point t is rows 10000 t … 10000 t + 9999 of the feature array. -/
private theorem feat_blk (t : Fin cfg1.N) (x : S10000x64.Idx) (k : Cert.Spec.SN.Idx)
    (hk0 : (k 0).val = 10000 * t.val + (x 0).val) (hk1 : (k 1).val = (x 1).val) :
    (iblk1 V c 0 t : Vec Ideal S10000x64 .f32) x = (V c main_v15_0 : Cert.Spec.SN.Idx → EReal) k := by
  obtain ⟨-, -, e0, e1, -⟩ := idx_rel t
  unfold iblk1
  rw [View.read_apply]
  show V c main_v15_0 _ = V c main_v15_0 _
  congr 1
  funext a
  apply Fin.ext
  match a with
  | ⟨0, _⟩ => show win1_0.index t 0 * 10000 + 1 * (x 0).val = (k 0).val; rw [e0, hk0]; omega
  | ⟨1, _⟩ => show win1_0.index t 1 * 64 + 1 * (x 1).val = (k 1).val; rw [e1, hk1]; omega

/-- The mean row's block is the whole row at every point. -/
private theorem mean_blk (t : Fin cfg1.N) (x : S1x64.Idx) :
    (iblk1 V c 1 t : Vec Ideal S1x64 .f32) x = (V c main_v17 : Cert.Spec.SR.Idx → EReal) x := by
  obtain ⟨-, -, -, -, e0, e1, -⟩ := idx_rel t
  unfold iblk1
  rw [View.read_apply]
  show V c main_v17 _ = V c main_v17 _
  congr 1
  funext a
  apply Fin.ext
  match a with
  | ⟨0, _⟩ => show win1_1.index t 0 * 1 + 1 * (x 0).val = (x 0).val; rw [e0]; omega
  | ⟨1, _⟩ => show win1_1.index t 1 * 64 + 1 * (x 1).val = (x 1).val; rw [e1]; omega

/-- The variance row's block is the whole row at every point. -/
private theorem var_blk (t : Fin cfg1.N) (x : S1x64.Idx) :
    (iblk1 V c 2 t : Vec Ideal S1x64 .f32) x = (V c main_v21 : Cert.Spec.SR.Idx → EReal) x := by
  obtain ⟨-, -, -, -, -, -, e0, e1, -⟩ := idx_rel t
  unfold iblk1
  rw [View.read_apply]
  show V c main_v21 _ = V c main_v21 _
  congr 1
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

/-- The scale row's block is the whole row at every point. -/
private theorem scale_blk (t : Fin cfg1.N) (x : S1x64.Idx) :
    (iblk1 V c 3 t : Vec Ideal S1x64 .f32) x = (V c main_v22 : Cert.Spec.SR.Idx → EReal) x := by
  obtain ⟨-, -, -, -, -, -, -, -, e0, e1, -⟩ := idx_rel t
  unfold iblk1
  rw [View.read_apply]
  show V c main_v22 _ = V c main_v22 _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

/-- The shift row's block is the whole row at every point. -/
private theorem shift_blk (t : Fin cfg1.N) (x : S1x64.Idx) :
    (iblk1 V c 4 t : Vec Ideal S1x64 .f32) x = (V c main_v23 : Cert.Spec.SR.Idx → EReal) x := by
  obtain ⟨-, -, -, -, -, -, -, -, -, -, e0, e1⟩ := idx_rel t
  unfold iblk1
  rw [View.read_apply]
  show V c main_v23 _ = V c main_v23 _
  congr 1
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega

/-- One entry of what point t computes, at row r and channel j of its block: the normalisation pass at the array
    index under it. -/
private theorem point_eq (t : Fin cfg1.N) (r : Fin 10000) (j : Fin 64) (k : Cert.Spec.SN.Idx)
    (hk0 : (k 0).val = 10000 * t.val + r.val) (hk1 : (k 1).val = j.val) :
    k1_pay1 (F := Ideal) (iblk1 V c 2 t) (iblk1 V c 0 t) (iblk1 V c 1 t) (iblk1 V c 3 t) (iblk1 V c 4 t) (ix2 r j) = G V c k := by
  rw [Cert.KernelIdeal.KPay.k1_pay1_apply, feat_blk V c t (ix2 r j) k hk0 hk1, mean_blk, var_blk, scale_blk, shift_blk]
  have hcol : (k 1 : Fin 64) = j := Fin.ext hk1
  show _ = Cert.Spec.normRows _ _ _ _ _ k
  unfold Cert.Spec.normRows
  rw [hcol]

/-- The same at any index of the block. -/
private theorem point_eq_idx (t : Fin cfg1.N) (y : S10000x64.Idx) (k : Cert.Spec.SN.Idx)
    (hk0 : (k 0).val = 10000 * t.val + (y 0).val) (hk1 : (k 1).val = (y 1).val) :
    k1_pay1 (F := Ideal) (iblk1 V c 2 t) (iblk1 V c 0 t) (iblk1 V c 1 t) (iblk1 V c 3 t) (iblk1 V c 4 t) y = G V c k :=
  (congrArg (k1_pay1 (F := Ideal) (iblk1 V c 2 t) (iblk1 V c 0 t) (iblk1 V c 1 t) (iblk1 V c 3 t) (iblk1 V c 4 t)) (eq_ix2 y)).trans
    (point_eq V c t (y 0) (y 1) k hk0 hk1)

/-- What point t writes back is row block t of the normalisation pass. -/
private theorem flushed_eq (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero origin_zero]
  simp only [View.ld_unit_zero (S := S1x64) origin_zero, View.ld_unit_zero (S := S10000x64) origin_zero]
  obtain ⟨e0, e1, -⟩ := idx_rel t
  funext j
  show k1_pay1 (F := Ideal) (iblk1 V c 2 t) (iblk1 V c 0 t) (iblk1 V c 1 t) (iblk1 V c 3 t) (iblk1 V c 4 t) j
    = G V c (((cfg1.win 5).blk t).view.emb j)
  refine point_eq_idx V c t j _ ?_ ?_
  · show win1_5.index t (0 : Fin 2) * 10000 + 1 * (j 0).val = 10000 * t.val + (j 0).val
    rw [e0]; omega
  · show win1_5.index t (1 : Fin 2) * 64 + 1 * (j 1).val = (j 1).val
    rw [e1]; omega

/-- An index of the array is in point t's block iff each coordinate is in the block's range on its axis. -/
private theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v24).slice (win1_5.rect t)).set ↔ _
  rw [View.set_slice_whole, Rect.mem_set_unit]
  exact Iff.rfl

/-- Every index of the array is under some point's block: row i under point i / 10000. -/
private theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, q0, q1⟩ := idx_onto ⟨(i 0).val / 10000, by omega⟩
  have q0' : win1_5.index t (0 : Fin 2) = (i 0).val / 10000 := q0
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array ends at the normalisation pass over the region's five input arrays. -/
theorem arr5 : ((dat1 V c).arrAt 5 cfg1.N : Cert.Spec.SN.Idx → EReal)
    = Cert.Spec.normRows (V c main_v15_0 : Cert.Spec.SN.Idx → EReal) (V c main_v17 : Cert.Spec.SR.Idx → EReal)
        (V c main_v21 : Cert.Spec.SR.Idx → EReal) (V c main_v22 : Cert.Spec.SR.Idx → EReal) (V c main_v23 : Cert.Spec.SR.Idx → EReal) :=
  (dat1 V c).arrAt_eq_of_cover 5 (G V c) (fun t _ => flushed_eq V c t) covered

end Cert.KernelIdeal.KReg1

end
-- ==== Proof.KValue.lean ====
/-
  The kernel program's result buffer after the run, as the specification's first spelling of the normalised layer
  over the launched arguments: the second region's pass over what the first region and the host stretches leave.
-/
import proofs.«113949_j43593918054564_1_alg».proof.Proof.Gen.KernelIdeal.Frame
import proofs.«113949_j43593918054564_1_alg».proof.Proof.Spec
import proofs.«113949_j43593918054564_1_alg».proof.Proof.LibLayout
import proofs.«113949_j43593918054564_1_alg».proof.Proof.KTerm
import proofs.«113949_j43593918054564_1_alg».proof.Proof.KHost
import proofs.«113949_j43593918054564_1_alg».proof.Proof.KReg0
import proofs.«113949_j43593918054564_1_alg».proof.Proof.KReg1

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.Spec

/-- A vector of `b` entries laid out as one row reads, at `(u, j)`, the vector at `j`. -/
theorem row_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

/-- The layer's result from the six arguments and the neighbour sums, in the kernel's spelling. -/
def valueOf (x a : SN.Idx → EReal) (W : SW.Idx → EReal) (b γ β : SV.Idx → EReal) : SN.Idx → EReal :=
  outK (lin (fun i => x i + a i) W b) γ β

/-- The linear layer over the summed features. -/
def hidOf (x a : SN.Idx → EReal) (W : SW.Idx → EReal) (b : SV.Idx → EReal) : SN.Idx → EReal :=
  lin (fun i => x i + a i) W b

/-- The pass over rows of statistics is the kernel's spelling of the layer, once the rows are known to hold the layer's own
    mean and variance and the scale and shift read as vectors. -/
theorem normRows_eq_outK (h : SN.Idx → EReal) (μ v g bt : SR.Idx → EReal) (h' : SN.Idx → EReal) (γ β : SV.Idx → EReal)
    (hh : h = h') (hμ : ∀ j : Fin 64, μ (ix2 (0 : Fin 1) j) = mean h' j) (hv : ∀ j : Fin 64, v (ix2 (0 : Fin 1) j) = varK h' j)
    (hg : ∀ j : Fin 64, g (ix2 (0 : Fin 1) j) = γ (ix1 j)) (hb : ∀ j : Fin 64, bt (ix2 (0 : Fin 1) j) = β (ix1 j)) :
    normRows h μ v g bt = outK h' γ β := by
  subst hh
  funext i
  obtain ⟨p, j, rfl⟩ : ∃ (p : Fin 100000) (j : Fin 64), i = ix2 p j := ⟨i 0, i 1, eq_ix2 i⟩
  show max (g (ix2 (0 : Fin 1) j) * ((h (ix2 p j) - μ (ix2 (0 : Fin 1) j)) * Ideal.rsqrt (v (ix2 (0 : Fin 1) j) + epsLit))
      + bt (ix2 (0 : Fin 1) j)) 0
    = max (γ (ix1 j) * ((h (ix2 p j) - mean h j) * Ideal.rsqrt (varK h j + epsLit)) + β (ix1 j)) 0
  rw [hμ, hv, hg, hb]

variable (m : (ℓ : Loc nD τ sig) → Buf (Elt Ideal) ℓ) (ρ : Dev nD → PrngReg) (c : Dev nD)

/-- The linear layer's output over the launched arguments. -/
def hK : SN.Idx → EReal :=
  hidOf (m ((c.tc : Thread nD τ).loc main_arg0))
    (KTerm.agg (F := Ideal) (m ((c.tc : Thread nD τ).loc main_arg0)) (m ((c.tc : Thread nD τ).loc main_arg1)))
    (m ((c.tc : Thread nD τ).loc main_arg2)) (m ((c.tc : Thread nD τ).loc main_arg3))

/-- What the first region computes from the arrays it finds is the linear layer over the launched arguments. -/
theorem hOf_eq : KReg0.hOf (V1 m ρ) c = hK m c := by
  unfold KReg0.hOf KReg0.hOfArr hK hidOf
  rw [KHost.V1_x, KHost.V1_agg, KHost.V1_W, KHost.V1_b]
  refine congrArg (lin _ _) (funext fun j => ?_)
  exact (row_apply (b := 64) _ _ (0 : Fin 1) (j 0)).trans (congrArg _ (eq_ix1 j).symm)

/-- The array of the linear layer's output as the second region finds it. -/
theorem h_eq : (V3 m ρ c main_v15_0 : SN.Idx → EReal) = hK m c := by
  rw [KHost.V3_h]
  have e : W2 m ρ c (Proc.devRef .tc main_v15_0) = (dat0 (V1 m ρ) c).arrAt 4 cfg0.N := W2_arr m ρ c 4
  rw [e, KReg0.arr4, hOf_eq]

/-- The node count's row reads the node count everywhere. -/
theorem nRow_apply (y : S1x64.Idx) :
    (broadcastInDim S1x64 ![] bcast_S_S1x64 (constant (F := Ideal) S_ .f32 0x47C35000#32) : S1x64.Idx → EReal) y = nLit := by
  rw [Cert.LibLayout.broadcastInDim_scalar_apply]
  rfl

/-- The mean row is the specification's mean of the linear layer. -/
theorem mean_eq (j : Fin 64) : (V3 m ρ c main_v17 : SR.Idx → EReal) (ix2 (0 : Fin 1) j) = mean (hK m c) j := by
  rw [KHost.V3_mean]
  have e : W2 m ρ c (Proc.devRef .tc main_v15_1) = (dat0 (V1 m ρ) c).arrAt 5 cfg0.N := W2_arr m ρ c 5
  rw [e, KReg0.arr5, hOf_eq]
  show Ideal.div _ _ = _
  rw [nRow_apply]
  rfl

/-- The variance row is the specification's mean of squares less the square of the mean. -/
theorem var_eq (j : Fin 64) : (V3 m ρ c main_v21 : SR.Idx → EReal) (ix2 (0 : Fin 1) j) = varK (hK m c) j := by
  rw [KHost.V3_var]
  have e : W2 m ρ c (Proc.devRef .tc main_v15_2) = (dat0 (V1 m ρ) c).arrAt 6 cfg0.N := W2_arr m ρ c 6
  rw [e, KReg0.arr6, hOf_eq]
  show Ideal.div _ _ - _ * _ = _
  rw [nRow_apply, mean_eq]
  rfl

/-- The scale row reads the scale. -/
theorem gamma_eq (j : Fin 64) :
    (V3 m ρ c main_v22 : SR.Idx → EReal) (ix2 (0 : Fin 1) j) = (m ((c.tc : Thread nD τ).loc main_arg4) : SV.Idx → EReal) (ix1 j) := by
  rw [KHost.V3_gamma, row_apply]

/-- The shift row reads the shift. -/
theorem beta_eq (j : Fin 64) :
    (V3 m ρ c main_v23 : SR.Idx → EReal) (ix2 (0 : Fin 1) j) = (m ((c.tc : Thread nD τ).loc main_arg5) : SV.Idx → EReal) (ix1 j) := by
  rw [KHost.V3_beta, row_apply]

/-- The result buffer's final contents: the normalised layer, in the kernel's spelling, over the launched arguments. -/
theorem value : (W4 m ρ c (Proc.devRef .tc main_v24) : SN.Idx → EReal)
    = valueOf (m ((c.tc : Thread nD τ).loc main_arg0))
        (KTerm.agg (F := Ideal) (m ((c.tc : Thread nD τ).loc main_arg0)) (m ((c.tc : Thread nD τ).loc main_arg1)))
        (m ((c.tc : Thread nD τ).loc main_arg2)) (m ((c.tc : Thread nD τ).loc main_arg3))
        (m ((c.tc : Thread nD τ).loc main_arg4)) (m ((c.tc : Thread nD τ).loc main_arg5)) := by
  have e : W4 m ρ c (Proc.devRef .tc main_v24) = (dat1 (V3 m ρ) c).arrAt 5 cfg1.N := W4_arr m ρ c 5
  rw [e, KReg1.arr5]
  exact normRows_eq_outK _ _ _ _ _ _ _ _ (h_eq m ρ c) (mean_eq m ρ c) (var_eq m ρ c) (gamma_eq m ρ c) (beta_eq m ρ c)

end Cert.KernelIdeal.KValue

end
-- ==== Proof.RRun.lean ====
/-
  The reference program's run: its @main as a list of host operations, and the result buffer after the run.
-/
import proofs.«113949_j43593918054564_1_alg».proof.Proof.Gen.ReferenceIdeal
import proofs.«113949_j43593918054564_1_alg».proof.Proof.RTerm
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The 69 operations of @main in program order, the variance function (with the selection it calls) and the
    clamp written out where they are called, each over the buffers of its own call. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v18 main_cst_1 main_v19 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v20 (broadcastInDim S64 ![] bcast_S_S64 : (⟨S_, .f32⟩ : BufTy).Contents (Elt F) → (⟨S64, .f32⟩ : BufTy).Contents (Elt F)),
    StableHlo.binary main_v19 main_v20 main_v21 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v18 : TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v18 : TRef sig ⟨S100000x64, .f32⟩) main_call0.v4 main_call0.v5 subf,
    StableHlo.TRef.binary main_call0.v5 main_call0.v5 main_call0.v6 mulf,
    StableHlo.TRef.unary (.of main_c_3 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v21 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S100000x64 ![0, 1] bcast_S1x64_S100000x64_0_1 : (⟨S1x64, .f32⟩ : BufTy).Contents (Elt F) → (⟨S100000x64, .f32⟩ : BufTy).Contents (Elt F)),
    StableHlo.binary main_v18 main_v24 main_v25 (subf : (⟨S100000x64, .f32⟩ : BufTy).Contents (Elt F) → (⟨S100000x64, .f32⟩ : BufTy).Contents (Elt F) → (⟨S100000x64, .f32⟩ : BufTy).Contents (Elt F)),
    StableHlo.unary main_arg4 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v25 main_v28 (mulf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v29 (broadcastInDim S64 ![] bcast_S_S64 : (⟨S_, .f32⟩ : BufTy).Contents (Elt F) → (⟨S64, .f32⟩ : BufTy).Contents (Elt F)),
    StableHlo.binary main_v22 main_v29 main_v30 (addf : (⟨S64, .f32⟩ : BufTy).Contents (Elt F) → (⟨S64, .f32⟩ : BufTy).Contents (Elt F) → (⟨S64, .f32⟩ : BufTy).Contents (Elt F)),
    StableHlo.unary main_v30 main_v31 (Host.rsqrt : (⟨S64, .f32⟩ : BufTy).Contents (Elt F) → (⟨S64, .f32⟩ : BufTy).Contents (Elt F)),
    StableHlo.unary main_v31 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S100000x64 ![0, 1] bcast_S1x64_S100000x64_0_1 : (⟨S1x64, .f32⟩ : BufTy).Contents (Elt F) → (⟨S100000x64, .f32⟩ : BufTy).Contents (Elt F)),
    StableHlo.binary main_v28 main_v33 main_v34 (mulf : (⟨S100000x64, .f32⟩ : BufTy).Contents (Elt F) → (⟨S100000x64, .f32⟩ : BufTy).Contents (Elt F) → (⟨S100000x64, .f32⟩ : BufTy).Contents (Elt F)),
    StableHlo.unary main_arg5 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v34 main_v36 main_v37 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v37 : TRef sig ⟨S100000x64, .f32⟩) main_call1.v0 main_call1.v1 maximumf ]

set_option maxRecDepth 2048 in
/-- @main is that straight line once the called functions are opened at their calls: both sides compute to the same
    chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub ..⟩

-- The sums over rows, the gather and the scatter-add stay folded while the two terms are compared: the comparison never
-- looks inside them.
attribute [local irreducible] Host.reduceAdd Host.gather Host.scatterAdd in
set_option maxRecDepth 8192 in
set_option maxHeartbeats 1600000 in
/-- Every weakly fair execution of the reference ends, nothing faulting, with the result buffer at the composed
    term of the arguments and the six arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = RTerm.term (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v38).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RRun

end
-- ==== Proof.RValue.lean ====
/-
  The reference's result read at the extended reals: the normalised layer with the variance as the mean of the
  squared deviations.
-/
import proofs.«113949_j43593918054564_1_alg».proof.Proof.Gen.ReferenceIdeal
import proofs.«113949_j43593918054564_1_alg».proof.Proof.RTerm
import proofs.«113949_j43593918054564_1_alg».proof.Proof.Spec
import proofs.«113949_j43593918054564_1_alg».proof.Proof.Algebra
import proofs.«113949_j43593918054564_1_alg».proof.Proof.LibLayout

noncomputable section

namespace Cert.ReferenceIdeal.RValue

open Cert.ReferenceIdeal Cert.ReferenceIdeal.Gen Idealize.ShloMosaic Idealize.ShloMosaic.ValueIdx

/-- The reference's linear layer is the specification's, over the summed features. -/
theorem hid_eq (x : FVec Ideal S100000x64 .f32) (ei : IVec S2x1600000 32) (W : FVec Ideal S64x64 .f32) (b : FVec Ideal S64 .f32) :
    RTerm.hid (F := Ideal) x ei W b
      = Cert.Spec.lin (fun i => x i + RTerm.agg (F := Ideal) x ei i) W b := by
  funext i
  obtain ⟨p, c, rfl⟩ : ∃ p c, i = ix2 p c := ⟨i 0, i 1, eq_ix2 i⟩
  unfold RTerm.hid Cert.Spec.lin
  -- the neighbour sums stay one unopened array
  generalize RTerm.agg (F := Ideal) x ei = g
  have hd : dot_S100000x64_S64x64_S100000x64_1_0_0_1_n_n = DotDims.plain 100000 64 64 := rfl
  rw [addf_apply, Cert.LibLayout.broadcastInDim_1b_ab_apply, Cert.LibLayout.broadcastInDim_b_1b_apply]
  show FloatOps.dotGeneral dot_S100000x64_S64x64_S100000x64_1_0_0_1_n_n none .single (addf x g) W (ix2 p c) + b (ix1 c)
    = (∑ k : Fin 64, (x (ix2 p k) + g (ix2 p k)) * W (ix2 k c)) + b (ix1 c)
  -- rows by columns: the sum over the shared coordinate
  rw [hd, Cert.LibLayout.dotGeneral_plain_apply]
  rfl

/-- The host's quotient of two arrays, read at an index, is the exact quotient of the entries. -/
private theorem hdivf_apply {s : Shape} (a b : FVec Ideal s .f32) (i : s.Idx) :
    Host.divf a b i = Ideal.div (a i) (b i) := rfl

/-- The host's inverse square root of an array, read at an index, is the exact one of the entry. -/
private theorem hrsqrt_apply {s : Shape} (a : FVec Ideal s .f32) (i : s.Idx) :
    Host.rsqrt a i = Ideal.rsqrt (a i) := rfl

/-- The sum over the node axis from a zero start, read at channel c: the sum of column c. -/
private theorem colsum_apply (h : FVec Ideal S100000x64 .f32) (c : Fin 64) :
    Host.reduceAdd h (constant S_ .f32 0x00000000#32) reducesTo_S100000x64_S64_d0 h_S_ (ix1 c)
      = ∑ k : Fin 100000, h (ix2 k c) := by
  have hR : Shape.Reduces S100000x64 [0] S64 := by decide
  show Ideal.hostReduceAdd reducesTo_S100000x64_S64_d0 h (Ideal.ofBits .f32 0x00000000#32) (ix1 c) = _
  rw [Ideal.hostReduceAdd_single _ hR, Ideal.ofBits_zero_f32, zero_add]
  refine Finset.sum_congr rfl fun k _ => ?_
  -- the channel index with the node coordinate k put back in front is (k, c)
  congr 1
  funext ax; apply Fin.ext
  match ax with
  | ⟨0, _⟩ => rfl
  | ⟨1, _⟩ => rfl

/-- A channel vector laid over all rows reads, at (p, c), its entry c. -/
private theorem rows_apply (v : FVec Ideal S64 .f32) (p : Fin 100000) (c : Fin 64) :
    RTerm.rows v (ix2 p c) = v (ix1 c) := by
  unfold RTerm.rows
  rw [Cert.LibLayout.broadcastInDim_1b_ab_apply, Cert.LibLayout.broadcastInDim_b_1b_apply]

/-- The vector of column means reads, at channel c, the specification's mean of column c. -/
private theorem meanV_apply (h : FVec Ideal S100000x64 .f32) (c : Fin 64) :
    RTerm.meanV h (ix1 c) = Cert.Spec.mean h c := by
  unfold RTerm.meanV Cert.Spec.mean Cert.Spec.colSum
  rw [hdivf_apply, colsum_apply, Cert.LibLayout.broadcastInDim_scalar_apply, constant_apply]
  rfl

/-- The same means kept as one row of 64 read, at (0, c), the specification's mean of column c. -/
private theorem mu1_apply (h : FVec Ideal S100000x64 .f32) (u : Fin 1) (c : Fin 64) :
    Host.divf
      (broadcastInDim S1x64 ![1] bcast_S64_S1x64_1 (Host.reduceAdd h (constant S_ .f32 0x00000000#32) reducesTo_S100000x64_S64_d0 h_S_))
      (broadcastInDim S1x64 ![] bcast_S_S1x64 (constant S_ .f32 0x47C35000#32)) (ix2 u c) = Cert.Spec.mean h c := by
  unfold Cert.Spec.mean Cert.Spec.colSum
  rw [hdivf_apply, Cert.LibLayout.broadcastInDim_b_1b_apply, colsum_apply, Cert.LibLayout.broadcastInDim_scalar_apply, constant_apply]
  rfl

/-- The corrected count at a zero correction: the integer zero is read exactly as 0, so the count is unchanged. -/
private theorem nn_eq :
    (subf (constant (F := Ideal) S_ .f32 0x47C35000#32) (sitofp .f32 (constantI S_ 32 0#32))) ix0 = Cert.Spec.nLit := by
  show Ideal.ofBits .f32 0x47C35000#32 - (((0#32 : BitVec 32).toInt : ℝ) : EReal) = Cert.Spec.nLit
  have h0 : ((0#32 : BitVec 32).toInt) = 0 := by decide
  rw [h0, Int.cast_zero, EReal.coe_zero, sub_zero]
  rfl

/-- The count is above zero, so the comparison that guards the variance holds. -/
private theorem count_pos : Ideal.cmp .ogt Cert.Spec.nLit 0 = 1#1 := by
  have h : (0 : EReal) < Cert.Spec.nLit := by
    rw [Cert.Spec.nLit_eq]; exact_mod_cast (by norm_num : (0 : ℝ) < 100000)
  simp [Ideal.cmp, h]

/-- The variance vector reads, at channel c, the mean of the squared deviations of column c: the guarded branch is the
    one taken since the count is positive. -/
private theorem varV_apply (h : FVec Ideal S100000x64 .f32) (c : Fin 64) :
    RTerm.varV h (ix1 c) = Cert.Spec.varR h c := by
  unfold RTerm.varV Cert.Spec.varR
  dsimp only
  rw [select_apply, Cert.LibLayout.broadcastInDim_scalar_apply, cmpf_apply, nn_eq, constant_apply, Ideal.ofBits_zero_f32,
    Ideal.cmpf_def, count_pos, select_one, hdivf_apply, colsum_apply, Cert.LibLayout.broadcastInDim_scalar_apply, nn_eq]
  -- term by term: the entry less its column mean, squared
  refine congrArg (fun s => Ideal.div s Cert.Spec.nLit) (Finset.sum_congr rfl fun k _ => ?_)
  rw [mulf_apply, subf_apply, Cert.LibLayout.broadcastInDim_1b_ab_apply, mu1_apply]

/-- The normalisation, scale, shift and clamp over any array h, read index by index, is the specification's. -/
private theorem norm_eq (h : FVec Ideal S100000x64 .f32) (γ β : FVec Ideal S64 .f32) :
    maximumf (addf (mulf (mulf (RTerm.rows γ) (subf h (RTerm.rows (RTerm.meanV h))))
        (RTerm.rows (Host.rsqrt (addf (RTerm.varV h) (broadcastInDim S64 ![] bcast_S_S64 (constant S_ .f32 0x3727C5AC#32))))))
        (RTerm.rows β))
      (broadcastInDim S100000x64 ![] bcast_S_S100000x64 (constant S_ .f32 0x00000000#32))
      = Cert.Spec.outR h γ β := by
  funext i
  obtain ⟨p, c, rfl⟩ : ∃ p c, i = ix2 p c := ⟨i 0, i 1, eq_ix2 i⟩
  unfold Cert.Spec.outR
  simp only [maximumf_apply, addf_apply, mulf_apply, subf_apply, rows_apply, meanV_apply, hrsqrt_apply, varV_apply,
    constant_apply]
  rw [Cert.LibLayout.broadcastInDim_scalar_apply, Cert.LibLayout.broadcastInDim_scalar_apply, constant_apply, constant_apply,
    Ideal.ofBits_zero_f32]
  rfl

/-- The reference's result is the specification's second spelling of the normalised layer. -/
theorem term_eq (x : FVec Ideal S100000x64 .f32) (ei : IVec S2x1600000 32) (W : FVec Ideal S64x64 .f32) (b γ β : FVec Ideal S64 .f32) :
    RTerm.term (F := Ideal) x ei W b γ β
      = Cert.Spec.outR (Cert.Spec.lin (fun i => x i + RTerm.agg (F := Ideal) x ei i) W b) γ β := by
  unfold RTerm.term
  -- the linear layer first, then carried as one array
  rw [hid_eq]
  exact norm_eq _ γ β

end Cert.ReferenceIdeal.RValue

end
-- ==== Proof.lean ====
/-
  A graph layer over 100000 nodes and 64 channels — neighbour sums added to the features, a linear map, batch
  statistics over the nodes, normalisation, an affine map and a clamp at zero — computed by a two-kernel program and by a
  reference, shown equal over the extended reals.

  Both programs form the same neighbour sums with the same host operations, so these enter as one array.  The first kernel
  computes the linear map block of rows by block of rows and keeps running column sums of it and of its square; between
  the kernels the mean is the column sum over the node count and the variance the mean of the squares less the square of
  the mean; the second kernel normalises, scales, shifts and clamps.  The reference takes the variance as the mean of the
  squared deviations and brackets the scale the other way.  The precondition makes every float input a real number; the
  neighbour sums are then finite sums of reals, the linear map's output is real, and on real entries the two variances
  agree (expand the square and use that there are exactly 100000 rows); the two bracketings agree on all extended reals.
-/
import proofs.«113949_j43593918054564_1_alg».proof.Defs
import proofs.«113949_j43593918054564_1_alg».proof.Proof.Gen.Kernel
import proofs.«113949_j43593918054564_1_alg».proof.Proof.Gen.Kernel.Frame
import proofs.«113949_j43593918054564_1_alg».proof.Proof.Gen.KernelIdeal
import proofs.«113949_j43593918054564_1_alg».proof.Proof.Gen.KernelIdeal.Frame
import proofs.«113949_j43593918054564_1_alg».proof.Proof.Gen.ReferenceIdeal
import proofs.«113949_j43593918054564_1_alg».proof.Proof.Gen.Pre_finite_inputs
import proofs.«113949_j43593918054564_1_alg».proof.Proof.Spec
import proofs.«113949_j43593918054564_1_alg».proof.Proof.Algebra
import proofs.«113949_j43593918054564_1_alg».proof.Proof.Finite
import proofs.«113949_j43593918054564_1_alg».proof.Proof.KTerm
import proofs.«113949_j43593918054564_1_alg».proof.Proof.RTerm
import proofs.«113949_j43593918054564_1_alg».proof.Proof.KRun
import proofs.«113949_j43593918054564_1_alg».proof.Proof.KValue
import proofs.«113949_j43593918054564_1_alg».proof.Proof.RRun
import proofs.«113949_j43593918054564_1_alg».proof.Proof.RValue
import Idealize.ShloMosaic.Adequacy
import Idealize.ShloMosaic.Init

noncomputable section

namespace Cert.Proof

open Idealize.ShloMosaic Idealize.ShloMosaic.TcCoe Idealize.SL.Sem

/-- The two programs form the neighbour sums by the same operations: one function of the features and the edges. -/
theorem agg_eq (x : FVec Ideal Cert.KernelIdeal.S100000x64 .f32) (ei : IVec Cert.KernelIdeal.S2x1600000 32) :
    Cert.ReferenceIdeal.RTerm.agg (F := Ideal) x ei = Cert.KernelIdeal.KTerm.agg (F := Ideal) x ei := rfl

/-- The entrywise sum of two arrays of real entries has real entries. -/
theorem isReal_add {ι : Type} {f g : ι → EReal} (hf : Cert.Spec.IsReal f) (hg : Cert.Spec.IsReal g) :
    Cert.Spec.IsReal (fun i => f i + g i) := fun i => by
  obtain ⟨a, ha⟩ := hf i
  obtain ⟨b, hb⟩ := hg i
  exact ⟨a + b, by show f i + g i = _; rw [ha, hb, EReal.coe_add]⟩

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RRun.run (F := Ideal) m ρ)

/-- Both runs end with the result at the kernel's spelling of the normalised layer over the launched arguments: the kernel
    by its own value, the reference by its value in the other spelling, equal to the first on real entries. -/
theorem algebraic : Cert.algebraic_KernelIdeal_ReferenceIdeal := by
  intro m ρ m' ρ' hpre hagree
  refine ⟨fun c => Cert.KernelIdeal.KValue.valueOf
      (m ((c.tc : Thread Cert.KernelIdeal.nD Cert.KernelIdeal.τ).loc Cert.KernelIdeal.main_arg0))
      (Cert.KernelIdeal.KTerm.agg (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.value m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RRun.run (F := Ideal) m' ρ')
    obtain ⟨h0, h1, h2, h3, h4, h5⟩ := hagree c
    obtain ⟨hx, hW, hb⟩ := Cert.Finite.of_pre _ _ _ _ _ _ (hpre c)
    have hagg := Cert.Finite.agg_isReal _
      (m ((c.tc : Thread Cert.KernelIdeal.nD Cert.KernelIdeal.τ).loc Cert.KernelIdeal.main_arg1)) hx
    rw [h0, h1, h2, h3, h4, h5, Cert.ReferenceIdeal.RValue.term_eq]
    unfold Cert.KernelIdeal.KValue.valueOf
    rw [agg_eq]
    exact (Cert.Spec.outK_eq_outR _ _ _ (Cert.Spec.lin_isReal (isReal_add hx hagg) hW hb)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
